-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1x12800 .f32 .bf16
  ∧ IdealRules.truncf_extf.Statement Cert.KernelIdeal.S1x128 .f32 .bf16
  ∧ IdealRules.truncf_extf.Statement Cert.KernelIdeal.S1x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x100000 : Shape := ⟨2, ![1, 100000]⟩
abbrev S1x5 : Shape := ⟨2, ![1, 5]⟩
abbrev S5x100000 : Shape := ⟨2, ![5, 100000]⟩
abbrev S1x12800 : Shape := ⟨2, ![1, 12800]⟩
abbrev S5x12800 : Shape := ⟨2, ![5, 12800]⟩
abbrev S5x128 : Shape := ⟨2, ![5, 128]⟩
abbrev S128x12800 : Shape := ⟨2, ![128, 12800]⟩
abbrev S128x1 : Shape := ⟨2, ![128, 1]⟩
abbrev S5x1 : Shape := ⟨2, ![5, 1]⟩
abbrev S100000x5 : Shape := ⟨2, ![100000, 5]⟩

abbrev nBuf : Space → Nat
  | .hbm => 13
  | .vmem => 10
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S1x100000, .f32⟩
  | .hbm, ⟨8, _⟩ => ⟨S1x128, .f32⟩
  | .hbm, ⟨9, _⟩ => ⟨S1x128, .f32⟩
  | .hbm, ⟨10, _⟩ => ⟨S1x5, .f32⟩
  | .hbm, ⟨11, _⟩ => ⟨S5x100000, .f32⟩
  | .hbm, ⟨12, _⟩ => ⟨S100000x5, .f32⟩
  | .local _ .vmem, ⟨0, _⟩ => ⟨S1x12800, .f32⟩
  | .local _ .vmem, ⟨1, _⟩ => ⟨S1x12800, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x5, .f32⟩
  | .local _ .vmem, ⟨7, _⟩ => ⟨S1x5, .f32⟩
  | .local _ .vmem, ⟨8, _⟩ => ⟨S5x12800, .f32⟩
  | .local _ .vmem, ⟨9, _⟩ => ⟨S5x12800, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x12800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100000_S1x100000 : S100000.ShapeCasts S1x100000
  shapeCasts_S128_S1x128 : S128.ShapeCasts S1x128
  shapeCasts_S5_S1x5 : S5.ShapeCasts S1x5
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  bitsLt_bf16_f32 : FTy.bits .bf16 < FTy.bits .f32
  concatenates_S1x12800_S1x12800_S1x12800_S1x12800_S1x12800_S5x12800_d0 : Shape.Concatenates [S1x12800, S1x12800, S1x12800, S1x12800, S1x12800] S5x12800 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S1x128_S1x128_S1x128_S1x128_S1x128_S5x128_d0 : Shape.Concatenates [S1x128, S1x128, S1x128, S1x128, S1x128] S5x128 0
  inb_S128x128_S128x128_0_0 : ∀ a, (![0, 0] : Fin 2 → Nat) a + S128x128.size a ≤ S128x128.size a
  h_S128x128 : 0 < S128x128.numel
  shapeCasts_S1x128_S128x1 : S1x128.ShapeCasts S128x1
  broadcasts_S128x1_S128x12800 : S128x1.Broadcasts S128x12800
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  shapeCasts_S1x5_S5x1 : S1x5.ShapeCasts S5x1
  broadcasts_S5x1_S5x12800 : S5x1.Broadcasts S5x12800
  inb_S5x12800_S5x12800_0_0 : ∀ a, (![0, 0] : Fin 2 → Nat) a + S5x12800.size a ≤ S5x12800.size a
  h_S5x12800 : 0 < S5x12800.numel
  transposes_S5x100000_S100000x5_1_0 : S5x100000.Transposes [1, 0] S100000x5
  dot_S5x128_S5x12800_S128x12800_0_0_1_1_n_n_wf : DotDims.WF S5x128 S5x12800 S128x12800 [0] [0] [1] [1] [] []
  dot_S128x128_S128x12800_S128x12800_0_0_1_1_n_n_wf : DotDims.WF S128x128 S128x12800 S128x12800 [0] [0] [1] [1] [] []
  dot_S128x5_S128x12800_S5x12800_0_0_1_1_n_n_wf : DotDims.WF S128x5 S128x12800 S5x12800 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x12800.size a < S1x100000.size a
  hwx0_0 : ∀ i : grid0.Coords, EltTy.bits .f32 = 32 ∨ (Rect.unit (s := S1x100000) (fun a => cc0_transform_0 i a * S1x12800.size a) (fun a => (Pipeline.Clip.of (cc0_transform_0 i a) (S1x12800.size a) (S1x100000.size a)).extent (S1x12800.size a)) fun a => Pipeline.Clip.inb (Pipeline.Clip.ok_of (hstart0_0 i a))).WholeWords (EltTy.packing .f32)
  hwxs0_0 : ∀ i : grid0.Coords, EltTy.bits .f32 = 32 ∨ (Rect.unit (s := S1x12800) (fun _ => 0) (fun a => (Pipeline.Clip.of (cc0_transform_0 i a) (S1x12800.size a) (S1x100000.size a)).extent (S1x12800.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S128x5.size a
  hwx0_5 : ∀ i : grid0.Coords, EltTy.bits .f32 = 32 ∨ (Rect.block (s := S128x5) S128x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S5x12800.size a < S5x100000.size a
  hwx0_7 : ∀ i : grid0.Coords, EltTy.bits .f32 = 32 ∨ (Rect.unit (s := S5x100000) (fun a => cc0_transform_7 i a * S5x12800.size a) (fun a => (Pipeline.Clip.of (cc0_transform_7 i a) (S5x12800.size a) (S5x100000.size a)).extent (S5x12800.size a)) fun a => Pipeline.Clip.inb (Pipeline.Clip.ok_of (hstart0_7 i a))).WholeWords (EltTy.packing .f32)
  hwxs0_7 : ∀ i : grid0.Coords, EltTy.bits .f32 = 32 ∨ (Rect.unit (s := S5x12800) (fun _ => 0) (fun a => (Pipeline.Clip.of (cc0_transform_7 i a) (S5x12800.size a) (S5x100000.size a)).extent (S5x12800.size a)) fun a => (Nat.zero_add _).trans_le (Pipeline.Clip.extent_le (Pipeline.Clip.ok_of (hstart0_7 i a)))).WholeWords (EltTy.packing .f32)

variable [Facts₀]

def dot_S5x128_S5x12800_S128x12800_0_0_1_1_n_n : DotDims S5x128 S5x12800 S128x12800 where
  lhsContracting := [0]
  rhsContracting := [0]
  lhsNonContracting := [1]
  rhsNonContracting := [1]
  lhsBatch := []
  rhsBatch := []
  wf := dot_S5x128_S5x12800_S128x12800_0_0_1_1_n_n_wf
def dot_S128x128_S128x12800_S128x12800_0_0_1_1_n_n : DotDims S128x128 S128x12800 S128x12800 where
  lhsContracting := [0]
  rhsContracting := [0]
  lhsNonContracting := [1]
  rhsNonContracting := [1]
  lhsBatch := []
  rhsBatch := []
  wf := dot_S128x128_S128x12800_S128x12800_0_0_1_1_n_n_wf
def dot_S128x5_S128x12800_S5x12800_0_0_1_1_n_n : DotDims S128x5 S128x12800 S5x12800 where
  lhsContracting := [0]
  rhsContracting := [0]
  lhsNonContracting := [1]
  rhsNonContracting := [1]
  lhsBatch := []
  rhsBatch := []
  wf := dot_S128x5_S128x12800_S5x12800_0_0_1_1_n_n_wf

abbrev win0_0 : Pipeline.Window sig grid0 :=
  Pipeline.Window.ofSpecClip (Memref.whole main_v0) S1x12800.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v4) S5x12800.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S100000x128 : Shape := ⟨2, ![100000, 128]⟩
abbrev S_ : Shape := ⟨0, ![]⟩
abbrev S100000x5 : Shape := ⟨2, ![100000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x5, .f32⟩
  | .hbm, ⟨23, _⟩ => ⟨S1x5, .f32⟩
  | .hbm, ⟨24, _⟩ => ⟨S100000x5, .f32⟩
  | .hbm, ⟨25, _⟩ => ⟨S100000x5, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.BodyK.lean ====
/-
  The kernel body as a step on its eight staging buffers.

  At one grid point the body reads the block of scalars (1 × 12800), the first layer's weights and bias
  (1 × 128 each), the second layer's weights (128 × 128) and bias (1 × 128), the output layer's weights
  (128 × 5) and bias (1 × 5), each buffer whole, and overwrites the result buffer (5 × 12800) whole with
  the network's values: the seven input buffers are left as they were, and the result buffer ends at
  `out7`, the one stored value as a function of the seven read contents. Nothing here depends on what
  a float is: the statement holds at every instance.
-/
import proofs.«101272_g64828236366229_cont_9to1_m_1379_11_alg».proof.Proof.Gen.Kernel.Skeleton
import proofs.«101272_g64828236366229_cont_9to1_m_1379_11_alg».proof.Proof.Gen.Kernel.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer, whole -/

abbrev rT : Rect S1x12800 := Rect.unit (s := S1x12800) ![0, 0] S1x12800.size inb_S1x12800_S1x12800_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rW3 : Rect S128x5 := Rect.unit (s := S128x5) ![0, 0] S128x5.size inb_S128x5_S128x5_0_0
abbrev rB3 : Rect S1x5 := Rect.unit (s := S1x5) ![0, 0] S1x5.size inb_S1x5_S1x5_0_0
abbrev rOut : Rect S5x12800 := Rect.unit (s := S5x12800) ![0, 0] S5x12800.size inb_S5x12800_S5x12800_0_0

/-! ## What the body leaves in the result buffer -/

/-- The result buffer after the body: its one store, of the network's values computed from the seven
    buffers read whole. -/
def out7 (x0 : Vec F S1x12800 .f32) (x1 x2 : Vec F S1x128 .f32) (x3 : Vec F S128x128 .f32) (x4 : Vec F S1x128 .f32)
    (x5 : Vec F S128x5 .f32) (x6 : Vec F S1x5 .f32) : Vec F S5x12800 .f32 :=
  View.canon [⟨rOut, k0_pay1 (k0_pay2 (View.ld x0 rT) (View.ld x1 rRow) (View.ld x2 rRow) (View.ld x3 rSq) (View.ld x4 rRow)
    (View.ld x5 rW3)) (View.ld x6 rB3)⟩]

/-- The one store covers the result buffer. -/
theorem cover7 (p0 : Vec F S5x12800 .f32) (y : S5x12800.Idx) :
    ∃ pc ∈ ([⟨rOut, p0⟩] : List (View.Piece (Elt F) S5x12800 .f32)), y ∈ pc.1.set :=
  View.cover_of_tiled [⟨rOut, p0⟩] S5x12800.size (by rfl) y

/-! ## The body's triple -/

set_option maxHeartbeats 1000000 in
/-- On whole staging memrefs, the seven inputs' at contents `x0 … x6` and the result's at anything, the body runs
    to the continuation holding the inputs' as they were and the result's at `out7` of them. -/
theorem sound_kernel (c : Dev nD) (E : Set ℕ) (i : grid0.Coords)
    (arg1 : Memref sig .tc .vmem S1x12800 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x5 .f32) (harg6 : arg6.IsWhole)
    (arg7 : Memref sig .tc .vmem S1x5 .f32) (harg7 : arg7.IsWhole) (arg8 : Memref sig .tc .vmem S5x12800 .f32) (harg8 : arg8.IsWhole)
    (x0 : Vec F S1x12800 .f32) (x1 x2 : Vec F S1x128 .f32) (x3 : Vec F S128x128 .f32) (x4 : Vec F S1x128 .f32)
    (x5 : Vec F S128x5 .f32) (x6 : Vec F S1x5 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

end Cert.Kernel.Hand

end
-- ==== Proof.FrameK.lean ====
/-
  The frame of the kernel as printed: it runs to the end, faults nowhere, and leaves its seven argument
  arrays as they were.

  The frame says nothing of the result, so nothing of the result buffer's contents is named here: the
  buffer is handed to the body at any contents and taken back at any contents. (It could not be named from
  the arguments alone: the last block of scalars overhangs its row by 2400 columns, a fetch moves only the
  columns inside the row, and what the matrix unit makes of the columns nothing wrote is not stated.) The
  seven input buffers are left by the body as it found them: the weights' and biases' at their arrays, the
  scalars' at its block inside the row and, past the row's end, at whatever it held.

  The arguments end unchanged for two reasons: three of them (the weight arrays) are the pipeline's own
  input arrays, which it only reads; the other four (the scalars and the biases) are read only by the host's
  reshapes before the region, and neither the region nor the transpose after it writes them.
-/
import proofs.«101272_g64828236366229_cont_9to1_m_1379_11_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents are not named: the result's. -/
def forgets : Fin 8 → Bool := fun w => w.val == 7

/-- The scalars' block at point `t` as a whole 1 × 12800 buffer: the part inside the row, a zero past its end. -/
def tblk (c : Dev nD) (t : Fin cfg0.N) : S1x12800.Idx → Elt F .f32 :=
  win0_0.fill (grid0.coords t) (fun _ => Scalar.ofBits .f32 0#32) (iblk m c 0 t)

/-- The proof data on core `c`: the arrays as the region finds them; after the body each input buffer at its block
    (the scalars' filled out past the row's end), the result buffer unnamed; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => tblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- The scalars' buffer is fetched at every point: the block on the columns inside the row, `d` past its end. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`: each input buffer at what it then holds, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns: the scalars' buffer at its block on the part a transfer moves and anything elsewhere, the
    weights' and biases' buffers at their blocks, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point: the input buffers hold their blocks, so the body's triple applies; it leaves them as
    they were, and the scalars' block cut back to the part inside the row is the block that was fetched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    have hcut : (cfg0.win 0).cut (cfg0.grid.coords t) (tblk m c t) = iblk m c 0 t := win0_0.cut_fill _ _ _
    rw [hcut]
    iexact H0
  isplitl [H1]; · iexact H1
  isplitl [H2]; · iexact H2
  isplitl [H3]; · iexact H3
  isplitl [H4]; · iexact H4
  isplitl [H5]; · iexact H5
  isplitl [H6]; · iexact H6
  iexists _; iexact H7

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The buffers the host's line after the region writes: its one result. -/
def tailWrites : Finset (Ref sig .tc) := {main_v5}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- From any memory with zero counters every weakly fair execution of @main terminates, every input array of the
    pipeline ends unchanged, and every other buffer outside the region that the last host line does not write ends as
    the region found it. -/
theorem run_main : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), by decide⟩)).trans (V_main_arg0 m c),
     (Pipeline.RDat.FramePostR.arr_in (cfg₁ := cfgs 0) (rdat := fun c => (dats m 0 c).toRForget forgets) h c 1 rfl).trans ((A_eq m c 1).trans (V_main_arg1 m c)),
     ((h c).2 main_arg2 (Finset.mem_sdiff.mpr ⟨Pipeline.mem_restRefs_of main_arg2 (by decide) (by decide), by decide⟩)).trans (V_main_arg2 m c),
     (Pipeline.RDat.FramePostR.arr_in (cfg₁ := cfgs 0) (rdat := fun c => (dats m 0 c).toRForget forgets) h c 3 rfl).trans ((A_eq m c 3).trans (V_main_arg3 m c)),
     ((h c).2 main_arg4 (Finset.mem_sdiff.mpr ⟨Pipeline.mem_restRefs_of main_arg4 (by decide) (by decide), by decide⟩)).trans (V_main_arg4 m c),
     (Pipeline.RDat.FramePostR.arr_in (cfg₁ := cfgs 0) (rdat := fun c => (dats m 0 c).toRForget forgets) h c 5 rfl).trans ((A_eq m c 5).trans (V_main_arg5 m c)),
     ((h c).2 main_arg6 (Finset.mem_sdiff.mpr ⟨Pipeline.mem_restRefs_of main_arg6 (by decide) (by decide), by decide⟩)).trans (V_main_arg6 m c)⟩)
    (run_main m ρ)

end Cert.Kernel.Hand

end
-- ==== Proof.BodyI.lean ====
/-
  The kernel body as a step on its eight staging buffers.

  At one grid point the body reads the block of scalars (1 × 12800), the first layer's weights and bias
  (1 × 128 each), the second layer's weights (128 × 128) and bias (1 × 128), the output layer's weights
  (128 × 5) and bias (1 × 5), each buffer whole, and overwrites the result buffer (5 × 12800) whole with
  the network's values: the seven input buffers are left as they were, and the result buffer ends at
  `out7`, the one stored value as a function of the seven read contents. Nothing here depends on what
  a float is: the statement holds at every instance.
-/
import proofs.«101272_g64828236366229_cont_9to1_m_1379_11_alg».proof.Proof.Gen.KernelIdeal.Skeleton
import proofs.«101272_g64828236366229_cont_9to1_m_1379_11_alg».proof.Proof.Gen.KernelIdeal.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer, whole -/

abbrev rT : Rect S1x12800 := Rect.unit (s := S1x12800) ![0, 0] S1x12800.size inb_S1x12800_S1x12800_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0
abbrev rW3 : Rect S128x5 := Rect.unit (s := S128x5) ![0, 0] S128x5.size inb_S128x5_S128x5_0_0
abbrev rB3 : Rect S1x5 := Rect.unit (s := S1x5) ![0, 0] S1x5.size inb_S1x5_S1x5_0_0
abbrev rOut : Rect S5x12800 := Rect.unit (s := S5x12800) ![0, 0] S5x12800.size inb_S5x12800_S5x12800_0_0

/-! ## What the body leaves in the result buffer -/

/-- The result buffer after the body: its one store, of the network's values computed from the seven
    buffers read whole. -/
def out7 (x0 : Vec F S1x12800 .f32) (x1 x2 : Vec F S1x128 .f32) (x3 : Vec F S128x128 .f32) (x4 : Vec F S1x128 .f32)
    (x5 : Vec F S128x5 .f32) (x6 : Vec F S1x5 .f32) : Vec F S5x12800 .f32 :=
  View.canon [⟨rOut, k0_pay1 (k0_pay2 (View.ld x0 rT) (View.ld x1 rRow) (View.ld x2 rRow) (View.ld x3 rSq) (View.ld x4 rRow)
    (View.ld x5 rW3)) (View.ld x6 rB3)⟩]

/-- The one store covers the result buffer. -/
theorem cover7 (p0 : Vec F S5x12800 .f32) (y : S5x12800.Idx) :
    ∃ pc ∈ ([⟨rOut, p0⟩] : List (View.Piece (Elt F) S5x12800 .f32)), y ∈ pc.1.set :=
  View.cover_of_tiled [⟨rOut, p0⟩] S5x12800.size (by rfl) y

/-! ## The body's triple -/

set_option maxHeartbeats 1000000 in
/-- On whole staging memrefs, the seven inputs' at contents `x0 … x6` and the result's at anything, the body runs
    to the continuation holding the inputs' as they were and the result's at `out7` of them. -/
theorem sound_kernel (c : Dev nD) (E : Set ℕ) (i : grid0.Coords)
    (arg1 : Memref sig .tc .vmem S1x12800 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x5 .f32) (harg6 : arg6.IsWhole)
    (arg7 : Memref sig .tc .vmem S1x5 .f32) (harg7 : arg7.IsWhole) (arg8 : Memref sig .tc .vmem S5x12800 .f32) (harg8 : arg8.IsWhole)
    (x0 : Vec F S1x12800 .f32) (x1 x2 : Vec F S1x128 .f32) (x3 : Vec F S128x128 .f32) (x4 : Vec F S1x128 .f32)
    (x5 : Vec F S128x5 .f32) (x6 : Vec F S1x5 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

end Cert.KernelIdeal.Hand

end
-- ==== Proof.DataI.lean ====
/-
  The proof data of the idealized kernel's pipeline: what each of the eight staging buffers holds after
  the body, point by point.

  The grid has eight points; point `t` handles columns `12800·t … 12800·t + 12799` of the row of 100000
  scalars, so the last block overhangs the row by 2400 columns. A transfer moves only the part of a block
  that lies inside its array. The data therefore name the scalars' buffer as its block inside the array,
  filled out past the array's end with a zero that nothing reads; the six weight and bias buffers as their
  arrays' (only) blocks; and the result buffer as the network's values computed from those.
-/
import proofs.«101272_g64828236366229_cont_9to1_m_1379_11_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scalars' block at point `t`, as a whole 1 × 12800 buffer: the part inside the array, and a zero past
    the array's end (only the last point has such columns). -/
def tblk (c : Dev nD) (t : Fin cfg0.N) : S1x12800.Idx → Elt F .f32 :=
  win0_0.fill (grid0.coords t) (fun _ => Scalar.ofBits .f32 0#32) (iblk m c 0 t)

/-- The proof data on core `c`: the arrays as the region finds them; after the body at point `t` the scalars'
    buffer at `tblk`, each weight or bias buffer at its array's block, the result buffer at the network's values
    of those; the invariant is the class's (the scoped rest, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (tblk m c t) (iblk m c 1 t) (iblk m c 2 t) (iblk m c 3 t) (iblk m c 4 t) (iblk m c 5 t) (iblk m c 6 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = tblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out7 (tblk m c t) (iblk m c 1 t) (iblk m c 2 t) (iblk m c 3 t) (iblk m c 4 t) (iblk m c 5 t) (iblk m c 6 t) := by
  dsimp only [dats]

/-- The scalars' buffer is fetched at every point: the body finds the block on the columns inside the array and,
    past the array's end, whatever the buffer held (`d`). -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]

/-- Each weight or bias buffer holds its array's block at every point, fetched there (the first point) or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.KernelIdeal.Hand

end
-- ==== Proof.Spec.lean ====
/-
  The function both programs compute, stated once, over extended reals.

  A three-layer perceptron applied to each of 100000 scalars `t`: a first layer of width 128 with a
  rectifier, `h₁ j = max (t · w₁ j + b₁ j) 0`; a second layer of width 128 with a rectifier,
  `h₂ k = max (∑ j, h₁ j · W₂ j k + b₂ k) 0`; an output layer of width 5, `o e = ∑ k, h₂ k · W₃ k e + b₃ e`.
  `net` is the network at one scalar; `G` is the array of results, row `p` the network at `t p`.
-/
import Idealize.ShloMosaic.PureOps.Ideal
import Idealize.ShloMosaic.Lib.ValueIdx

noncomputable section

namespace Cert.Spec

open Idealize.ShloMosaic Idealize.ShloMosaic.ValueIdx
open scoped BigOperators

/-- The first hidden layer at a scalar `t`: the affine map of the scalar, rectified. -/
def hid1 (w1 b1 : Fin 128 → EReal) (t : EReal) : Fin 128 → EReal :=
  fun j => max (t * w1 j + b1 j) 0

/-- The second hidden layer: the affine map of the first layer's 128 values, rectified. -/
def hid2 (W2 : Fin 128 → Fin 128 → EReal) (b2 : Fin 128 → EReal) (h : Fin 128 → EReal) : Fin 128 → EReal :=
  fun k => max ((∑ j : Fin 128, h j * W2 j k) + b2 k) 0

/-- The output layer: the affine map of the second layer's 128 values, five results. -/
def out3 (W3 : Fin 128 → Fin 5 → EReal) (b3 : Fin 5 → EReal) (h : Fin 128 → EReal) : Fin 5 → EReal :=
  fun e => (∑ k : Fin 128, h k * W3 k e) + b3 e

/-- The network at one scalar. -/
def net (w1 b1 : Fin 128 → EReal) (W2 : Fin 128 → Fin 128 → EReal) (b2 : Fin 128 → EReal)
    (W3 : Fin 128 → Fin 5 → EReal) (b3 : Fin 5 → EReal) (t : EReal) : Fin 5 → EReal :=
  out3 W3 b3 (hid2 W2 b2 (hid1 w1 b1 t))

/-- The result array, 100000 rows of 5: row `p` is the network at `t p`, the weights read off the
    argument arrays (the first layer's weights are the one row of a 1 × 128 array). -/
def G (a0 : (⟨1, ![100000]⟩ : Shape).Idx → EReal) (a1 : (⟨2, ![1, 128]⟩ : Shape).Idx → EReal)
    (a2 : (⟨1, ![128]⟩ : Shape).Idx → EReal) (a3 : (⟨2, ![128, 128]⟩ : Shape).Idx → EReal)
    (a4 : (⟨1, ![128]⟩ : Shape).Idx → EReal) (a5 : (⟨2, ![128, 5]⟩ : Shape).Idx → EReal)
    (a6 : (⟨1, ![5]⟩ : Shape).Idx → EReal) : (⟨2, ![100000, 5]⟩ : Shape).Idx → EReal :=
  fun i =>
    net (fun j => a1 (ix2 (0 : Fin 1) j)) (fun j => a2 (ix1 j)) (fun j k => a3 (ix2 j k)) (fun k => a4 (ix1 k))
      (fun k e => a5 (ix2 k e)) (fun e => a6 (ix1 e))
      (a0 (ix1 (⟨(i 0).val, idx2_lt0 i⟩ : Fin 100000))) (⟨(i 1).val, idx2_lt1 i⟩ : Fin 5)

end Cert.Spec

end
-- ==== Proof.PayValue.lean ====
/-
  The value the kernel's body stores, read at one entry.

  The body works on a block of 12800 scalars laid along the lane axis. Its first layer is one product
  of a 5 × 128 matrix of rows `w₁, w₁, w₁ − w₁, b₁, b₁ − b₁` against a 5 × 12800 matrix of rows
  `t, t − t, t, 1, 1`, contracted over the five rows; the second and third layers contract the hidden
  axis of the transposed weights against the hidden axis of the activations, and the biases are
  added as columns. Over the extended reals every operation is exact, so the entry in row `e` and
  column `p` of the stored block is a function `netK` of the weights and of the single scalar in
  column `p` (`pay_raw`, which needs no hypothesis). When the scalar and the first layer's weights
  are real numbers the differences `x − x` vanish and `netK` is the specification's network
  (`netK_eq_net`).
-/
import proofs.«101272_g64828236366229_cont_9to1_m_1379_11_alg».proof.Proof.Gen.KernelIdeal.Skeleton
import proofs.«101272_g64828236366229_cont_9to1_m_1379_11_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Idealize.ShloMosaic Idealize.ShloMosaic.ValueIdx
open scoped BigOperators

/-! ## The three products read at an entry

Each product contracts axis 0 of its left operand with axis 0 of its right operand; the result's row
is the left operand's column and the result's column is the right operand's column. So the entry
`(a, p)` of the product is `∑ c, L (c, a) · R (c, p)`. For each of the three sets of dimension numbers,
four lemmas say which coordinate of the result index or of the contraction index each operand's
coordinate is, and a fifth re-indexes the contraction's sum by its one coordinate. -/

/-- First product, left operand: its row is the contraction coordinate. -/
theorem d1_lhs_0 (i : S128x12800.Idx) (q : dot_S5x128_S5x12800_S128x12800_0_0_1_1_n_n.contr.Idx) :
    (dot_S5x128_S5x12800_S128x12800_0_0_1_1_n_n.lhsIdx i q 0).val = (q ⟨0, by decide⟩).val :=
  dot_S5x128_S5x12800_S128x12800_0_0_1_1_n_n.lhsIdx_val_of_single rfl i q
/-- First product, left operand: its column is the result's row. -/
theorem d1_lhs_1 (i : S128x12800.Idx) (q : dot_S5x128_S5x12800_S128x12800_0_0_1_1_n_n.contr.Idx) :
    (dot_S5x128_S5x12800_S128x12800_0_0_1_1_n_n.lhsIdx i q 1).val = (i 0).val := by
  unfold DotDims.lhsIdx
  rw [dif_neg (show ¬(1 : Fin S5x128.rank) ∈ dot_S5x128_S5x12800_S128x12800_0_0_1_1_n_n.lhsBatch by decide), dif_pos (show (1 : Fin S5x128.rank) ∈ dot_S5x128_S5x12800_S128x12800_0_0_1_1_n_n.lhsNonContracting by decide)]
  rfl
/-- First product, right operand: its row is the contraction coordinate. -/
theorem d1_rhs_0 (i : S128x12800.Idx) (q : dot_S5x128_S5x12800_S128x12800_0_0_1_1_n_n.contr.Idx) :
    (dot_S5x128_S5x12800_S128x12800_0_0_1_1_n_n.rhsIdx i q 0).val = (q ⟨0, by decide⟩).val :=
  dot_S5x128_S5x12800_S128x12800_0_0_1_1_n_n.rhsIdx_val_of_single rfl i q
/-- First product, right operand: its column is the result's column. -/
theorem d1_rhs_1 (i : S128x12800.Idx) (q : dot_S5x128_S5x12800_S128x12800_0_0_1_1_n_n.contr.Idx) :
    (dot_S5x128_S5x12800_S128x12800_0_0_1_1_n_n.rhsIdx i q 1).val = (i 1).val := by
  unfold DotDims.rhsIdx
  rw [dif_neg (show ¬(1 : Fin S5x12800.rank) ∈ dot_S5x128_S5x12800_S128x12800_0_0_1_1_n_n.rhsBatch by decide), dif_pos (show (1 : Fin S5x12800.rank) ∈ dot_S5x128_S5x12800_S128x12800_0_0_1_1_n_n.rhsNonContracting by decide)]
  rfl

/-- The first product into a zero accumulator, at hidden unit `j` and column `p`: the sum over the
    five stacked rows of the left row's entry at `j` times the right row's entry at `p`. -/
theorem mat1_apply (L : FVec Ideal S5x128 .bf16) (R : FVec Ideal S5x12800 .bf16) (j : Fin 128) (p : Fin 12800) :
    matmul dot_S5x128_S5x12800_S128x12800_0_0_1_1_n_n none L R (constant S128x12800 .f32 0x00000000#32) (ix2 j p)
      = ∑ c : Fin 5, L (ix2 c j) * R (ix2 c p) := by
  simp only [matmul]
  rw [Ideal.matmul_constant_zero_apply, ← Equiv.sum_comp (contrEquiv1 dot_S5x128_S5x12800_S128x12800_0_0_1_1_n_n 5 rfl rfl).symm]
  refine Finset.sum_congr rfl fun c _ => ?_
  have hc := contrEquiv1_symm_val dot_S5x128_S5x12800_S128x12800_0_0_1_1_n_n 5 rfl rfl c
  have el : dot_S5x128_S5x12800_S128x12800_0_0_1_1_n_n.lhsIdx (ix2 j p) ((contrEquiv1 dot_S5x128_S5x12800_S128x12800_0_0_1_1_n_n 5 rfl rfl).symm c) = ix2 c j := funext fun x => Fin.ext (by
    match x with
    | ⟨0, _⟩ => exact (d1_lhs_0 _ _).trans hc
    | ⟨1, _⟩ => exact d1_lhs_1 _ _)
  have er : dot_S5x128_S5x12800_S128x12800_0_0_1_1_n_n.rhsIdx (ix2 j p) ((contrEquiv1 dot_S5x128_S5x12800_S128x12800_0_0_1_1_n_n 5 rfl rfl).symm c) = ix2 c p := funext fun x => Fin.ext (by
    match x with
    | ⟨0, _⟩ => exact (d1_rhs_0 _ _).trans hc
    | ⟨1, _⟩ => exact d1_rhs_1 _ _)
  rw [el, er]

/-- Second product, left operand: its row is the contraction coordinate. -/
theorem d2_lhs_0 (i : S128x12800.Idx) (q : dot_S128x128_S128x12800_S128x12800_0_0_1_1_n_n.contr.Idx) :
    (dot_S128x128_S128x12800_S128x12800_0_0_1_1_n_n.lhsIdx i q 0).val = (q ⟨0, by decide⟩).val :=
  dot_S128x128_S128x12800_S128x12800_0_0_1_1_n_n.lhsIdx_val_of_single rfl i q
/-- Second product, left operand: its column is the result's row. -/
theorem d2_lhs_1 (i : S128x12800.Idx) (q : dot_S128x128_S128x12800_S128x12800_0_0_1_1_n_n.contr.Idx) :
    (dot_S128x128_S128x12800_S128x12800_0_0_1_1_n_n.lhsIdx i q 1).val = (i 0).val := by
  unfold DotDims.lhsIdx
  rw [dif_neg (show ¬(1 : Fin S128x128.rank) ∈ dot_S128x128_S128x12800_S128x12800_0_0_1_1_n_n.lhsBatch by decide), dif_pos (show (1 : Fin S128x128.rank) ∈ dot_S128x128_S128x12800_S128x12800_0_0_1_1_n_n.lhsNonContracting by decide)]
  rfl
/-- Second product, right operand: its row is the contraction coordinate. -/
theorem d2_rhs_0 (i : S128x12800.Idx) (q : dot_S128x128_S128x12800_S128x12800_0_0_1_1_n_n.contr.Idx) :
    (dot_S128x128_S128x12800_S128x12800_0_0_1_1_n_n.rhsIdx i q 0).val = (q ⟨0, by decide⟩).val :=
  dot_S128x128_S128x12800_S128x12800_0_0_1_1_n_n.rhsIdx_val_of_single rfl i q
/-- Second product, right operand: its column is the result's column. -/
theorem d2_rhs_1 (i : S128x12800.Idx) (q : dot_S128x128_S128x12800_S128x12800_0_0_1_1_n_n.contr.Idx) :
    (dot_S128x128_S128x12800_S128x12800_0_0_1_1_n_n.rhsIdx i q 1).val = (i 1).val := by
  unfold DotDims.rhsIdx
  rw [dif_neg (show ¬(1 : Fin S128x12800.rank) ∈ dot_S128x128_S128x12800_S128x12800_0_0_1_1_n_n.rhsBatch by decide), dif_pos (show (1 : Fin S128x12800.rank) ∈ dot_S128x128_S128x12800_S128x12800_0_0_1_1_n_n.rhsNonContracting by decide)]
  rfl

/-- The second product into a zero accumulator, at hidden unit `k` and column `p`: the sum over the
    first layer's units `c` of the weight `(c, k)` times the activation `(c, p)`. -/
theorem mat2_apply (L : FVec Ideal S128x128 .bf16) (R : FVec Ideal S128x12800 .bf16) (k : Fin 128) (p : Fin 12800) :
    matmul dot_S128x128_S128x12800_S128x12800_0_0_1_1_n_n none L R (constant S128x12800 .f32 0x00000000#32) (ix2 k p)
      = ∑ c : Fin 128, L (ix2 c k) * R (ix2 c p) := by
  simp only [matmul]
  rw [Ideal.matmul_constant_zero_apply, ← Equiv.sum_comp (contrEquiv1 dot_S128x128_S128x12800_S128x12800_0_0_1_1_n_n 128 rfl rfl).symm]
  refine Finset.sum_congr rfl fun c _ => ?_
  have hc := contrEquiv1_symm_val dot_S128x128_S128x12800_S128x12800_0_0_1_1_n_n 128 rfl rfl c
  have el : dot_S128x128_S128x12800_S128x12800_0_0_1_1_n_n.lhsIdx (ix2 k p) ((contrEquiv1 dot_S128x128_S128x12800_S128x12800_0_0_1_1_n_n 128 rfl rfl).symm c) = ix2 c k := funext fun x => Fin.ext (by
    match x with
    | ⟨0, _⟩ => exact (d2_lhs_0 _ _).trans hc
    | ⟨1, _⟩ => exact d2_lhs_1 _ _)
  have er : dot_S128x128_S128x12800_S128x12800_0_0_1_1_n_n.rhsIdx (ix2 k p) ((contrEquiv1 dot_S128x128_S128x12800_S128x12800_0_0_1_1_n_n 128 rfl rfl).symm c) = ix2 c p := funext fun x => Fin.ext (by
    match x with
    | ⟨0, _⟩ => exact (d2_rhs_0 _ _).trans hc
    | ⟨1, _⟩ => exact d2_rhs_1 _ _)
  rw [el, er]

/-- Third product, left operand: its row is the contraction coordinate. -/
theorem d3_lhs_0 (i : S5x12800.Idx) (q : dot_S128x5_S128x12800_S5x12800_0_0_1_1_n_n.contr.Idx) :
    (dot_S128x5_S128x12800_S5x12800_0_0_1_1_n_n.lhsIdx i q 0).val = (q ⟨0, by decide⟩).val :=
  dot_S128x5_S128x12800_S5x12800_0_0_1_1_n_n.lhsIdx_val_of_single rfl i q
/-- Third product, left operand: its column is the result's row. -/
theorem d3_lhs_1 (i : S5x12800.Idx) (q : dot_S128x5_S128x12800_S5x12800_0_0_1_1_n_n.contr.Idx) :
    (dot_S128x5_S128x12800_S5x12800_0_0_1_1_n_n.lhsIdx i q 1).val = (i 0).val := by
  unfold DotDims.lhsIdx
  rw [dif_neg (show ¬(1 : Fin S128x5.rank) ∈ dot_S128x5_S128x12800_S5x12800_0_0_1_1_n_n.lhsBatch by decide), dif_pos (show (1 : Fin S128x5.rank) ∈ dot_S128x5_S128x12800_S5x12800_0_0_1_1_n_n.lhsNonContracting by decide)]
  rfl
/-- Third product, right operand: its row is the contraction coordinate. -/
theorem d3_rhs_0 (i : S5x12800.Idx) (q : dot_S128x5_S128x12800_S5x12800_0_0_1_1_n_n.contr.Idx) :
    (dot_S128x5_S128x12800_S5x12800_0_0_1_1_n_n.rhsIdx i q 0).val = (q ⟨0, by decide⟩).val :=
  dot_S128x5_S128x12800_S5x12800_0_0_1_1_n_n.rhsIdx_val_of_single rfl i q
/-- Third product, right operand: its column is the result's column. -/
theorem d3_rhs_1 (i : S5x12800.Idx) (q : dot_S128x5_S128x12800_S5x12800_0_0_1_1_n_n.contr.Idx) :
    (dot_S128x5_S128x12800_S5x12800_0_0_1_1_n_n.rhsIdx i q 1).val = (i 1).val := by
  unfold DotDims.rhsIdx
  rw [dif_neg (show ¬(1 : Fin S128x12800.rank) ∈ dot_S128x5_S128x12800_S5x12800_0_0_1_1_n_n.rhsBatch by decide), dif_pos (show (1 : Fin S128x12800.rank) ∈ dot_S128x5_S128x12800_S5x12800_0_0_1_1_n_n.rhsNonContracting by decide)]
  rfl

/-- The third product into a zero accumulator, at output `e` and column `p`: the sum over the second
    layer's units `c` of the weight `(c, e)` times the activation `(c, p)`. -/
theorem mat3_apply (L : FVec Ideal S128x5 .bf16) (R : FVec Ideal S128x12800 .bf16) (e : Fin 5) (p : Fin 12800) :
    matmul dot_S128x5_S128x12800_S5x12800_0_0_1_1_n_n none L R (constant S5x12800 .f32 0x00000000#32) (ix2 e p)
      = ∑ c : Fin 128, L (ix2 c e) * R (ix2 c p) := by
  simp only [matmul]
  rw [Ideal.matmul_constant_zero_apply, ← Equiv.sum_comp (contrEquiv1 dot_S128x5_S128x12800_S5x12800_0_0_1_1_n_n 128 rfl rfl).symm]
  refine Finset.sum_congr rfl fun c _ => ?_
  have hc := contrEquiv1_symm_val dot_S128x5_S128x12800_S5x12800_0_0_1_1_n_n 128 rfl rfl c
  have el : dot_S128x5_S128x12800_S5x12800_0_0_1_1_n_n.lhsIdx (ix2 e p) ((contrEquiv1 dot_S128x5_S128x12800_S5x12800_0_0_1_1_n_n 128 rfl rfl).symm c) = ix2 c e := funext fun x => Fin.ext (by
    match x with
    | ⟨0, _⟩ => exact (d3_lhs_0 _ _).trans hc
    | ⟨1, _⟩ => exact d3_lhs_1 _ _)
  have er : dot_S128x5_S128x12800_S5x12800_0_0_1_1_n_n.rhsIdx (ix2 e p) ((contrEquiv1 dot_S128x5_S128x12800_S5x12800_0_0_1_1_n_n 128 rfl rfl).symm c) = ix2 c p := funext fun x => Fin.ext (by
    match x with
    | ⟨0, _⟩ => exact (d3_rhs_0 _ _).trans hc
    | ⟨1, _⟩ => exact d3_rhs_1 _ _)
  rw [el, er]

/-! ## Rows turned into columns, columns spread over the lanes, five rows stacked -/

section Layout
variable {α : Type}

/-- A `[1, a]` row cast to an `[a, 1]` column reads, at `(i, u)`, the row at `(0, i)`: both have
    row-major position `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(i, p)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (p : Fin b) :
    broadcastTo ⟨2, ![a, b]⟩ v h (ix2 i p) = v (ix2 i (0 : Fin 1)) := by
  refine broadcastTo_apply v h (ix2 i p) (ix2 i (0 : Fin 1)) fun ax => ?_
  match ax with
  | ⟨0, _⟩ =>
    show i.val = if a = 1 then 0 else i.val
    split
    · have := i.isLt; omega
    · rfl
  | ⟨1, _⟩ =>
    exact (if_pos rfl).symm

/-- Five `[1, n]` rows stacked along axis 0 read, at `(c, p)`, row `c` at `(0, p)`: the rows before
    row `c` take up `c` positions of the axis, one each. -/
theorem concatenate5_rows_apply {n : ℕ} (x0 x1 x2 x3 x4 : (⟨2, ![1, n]⟩ : Shape).Idx → α)
    (h : Shape.Concatenates (([⟨⟨2, ![1, n]⟩, x0⟩, ⟨⟨2, ![1, n]⟩, x1⟩, ⟨⟨2, ![1, n]⟩, x2⟩, ⟨⟨2, ![1, n]⟩, x3⟩, ⟨⟨2, ![1, n]⟩, x4⟩] :
      List ((s : Shape) × (s.Idx → α))).map (·.1)) ⟨2, ![5, n]⟩ 0) (c : Fin 5) (p : Fin n) :
    concatenate ⟨2, ![5, n]⟩ 0 [⟨⟨2, ![1, n]⟩, x0⟩, ⟨⟨2, ![1, n]⟩, x1⟩, ⟨⟨2, ![1, n]⟩, x2⟩, ⟨⟨2, ![1, n]⟩, x3⟩, ⟨⟨2, ![1, n]⟩, x4⟩] h (ix2 c p)
      = (match c with | 0 => x0 | 1 => x1 | 2 => x2 | 3 => x3 | 4 => x4) (ix2 (0 : Fin 1) p) := by
  have key : ∀ (k : Nat) (hk : k < 5) (x : (⟨2, ![1, n]⟩ : Shape).Idx → α),
      ([⟨⟨2, ![1, n]⟩, x0⟩, ⟨⟨2, ![1, n]⟩, x1⟩, ⟨⟨2, ![1, n]⟩, x2⟩, ⟨⟨2, ![1, n]⟩, x3⟩, ⟨⟨2, ![1, n]⟩, x4⟩] :
        List ((s : Shape) × (s.Idx → α)))[k]'hk = ⟨⟨2, ![1, n]⟩, x⟩ →
      concatenate ⟨2, ![5, n]⟩ 0 [⟨⟨2, ![1, n]⟩, x0⟩, ⟨⟨2, ![1, n]⟩, x1⟩, ⟨⟨2, ![1, n]⟩, x2⟩, ⟨⟨2, ![1, n]⟩, x3⟩, ⟨⟨2, ![1, n]⟩, x4⟩] h
        (ix2 (⟨k, hk⟩ : Fin 5) p) = x (ix2 (0 : Fin 1) p) := by
    intro k hk x hx
    refine concatenate_apply_piece 0 _ h _ k hk _ x hx rfl k ?_ (ix2 (0 : Fin 1) p) ?_ ?_
    · interval_cases k <;> rfl
    · intro b hb
      match b with
      | ⟨0, _⟩ => exact absurd rfl hb
      | ⟨1, _⟩ => rfl
    · show k + 0 = k
      rfl
  match c with
  | ⟨0, _⟩ => exact key 0 (by decide) x0 rfl
  | ⟨1, _⟩ => exact key 1 (by decide) x1 rfl
  | ⟨2, _⟩ => exact key 2 (by decide) x2 rfl
  | ⟨3, _⟩ => exact key 3 (by decide) x3 rfl
  | ⟨4, _⟩ => exact key 4 (by decide) x4 rfl

end Layout

/-! ## The two sixteen-bit constants -/

/-- A bit pattern denotes, over the extended reals, the number its format assigns it. -/
theorem scalar_ofBits (φ : FTy) (b : BitVec φ.bits) : FloatOps.ofBits (F := Ideal) φ b = Ideal.ofBits φ b := rfl

/-- The bf16 word `0x3F80` is one. -/
theorem ofBits_one_bf16 : Ideal.ofBits .bf16 0x3F80#16 = 1 := by
  simp [Ideal.ofBits, Ideal.ieee, -EReal.coe_mul]; norm_num

/-- The bf16 word `0x0000` is zero. -/
theorem ofBits_zero_bf16 : Ideal.ofBits .bf16 0x0000#16 = 0 := by
  simp [Ideal.ofBits, Ideal.ieee]

/-! ## The kernel's network at one scalar -/

/-- The first layer as the body computes it: the five products of the stacked rows, summed, then
    the rectifier. -/
def lay1 (w1 b1 : Fin 128 → EReal) (t : EReal) : Fin 128 → EReal :=
  fun j => max (w1 j * t + w1 j * (t - t) + (w1 j - w1 j) * t + b1 j * 1 + (b1 j - b1 j) * 1) 0

/-- The second layer as the body computes it: weight times activation, summed over the hidden axis,
    plus the bias, then the rectifier. -/
def lay2 (W2 : Fin 128 → Fin 128 → EReal) (b2 : Fin 128 → EReal) (h : Fin 128 → EReal) : Fin 128 → EReal :=
  fun k => max ((∑ j : Fin 128, W2 j k * h j) + b2 k) 0

/-- The kernel's network at one scalar: the output layer, weight times activation summed over the
    hidden axis, plus the bias. -/
def netK (w1 b1 : Fin 128 → EReal) (W2 : Fin 128 → Fin 128 → EReal) (b2 : Fin 128 → EReal)
    (W3 : Fin 128 → Fin 5 → EReal) (b3 : Fin 5 → EReal) (t : EReal) : Fin 5 → EReal :=
  fun e => (∑ k : Fin 128, W3 k e * lay2 W2 b2 (lay1 w1 b1 t) k) + b3 e

/-- The stored block at row `e`, column `p` depends on the block of scalars only through its entry in
    column `p`: it is the kernel's network at that scalar. No hypothesis. The elementwise operations
    read through at the entry; the three products become sums over their contraction coordinate; the
    sum over the five stacked rows is written out, each row read off its stack; the bias rows, cast
    to columns and spread over the lanes, read their one entry. -/
theorem pay_raw (X0 : Vec Ideal S1x12800 .f32) (X1 X2 : Vec Ideal S1x128 .f32) (X3 : Vec Ideal S128x128 .f32)
    (X4 : Vec Ideal S1x128 .f32) (X5 : Vec Ideal S128x5 .f32) (X6 : Vec Ideal S1x5 .f32) (e : Fin 5) (p : Fin 12800) :
    Gen.k0_pay1 (F := Ideal) (Gen.k0_pay2 (F := Ideal) X0 X1 X2 X3 X4 X5) X6 (ix2 e p)
      = netK (fun j => X1 (ix2 (0 : Fin 1) j)) (fun j => X2 (ix2 (0 : Fin 1) j)) (fun j k => X3 (ix2 j k))
          (fun k => X4 (ix2 (0 : Fin 1) k)) (fun k e' => X5 (ix2 k e')) (fun e' => X6 (ix2 (0 : Fin 1) e'))
          (X0 (ix2 (0 : Fin 1) p)) e := by
  unfold Gen.k0_pay1 Gen.k0_pay2
  dsimp only
  simp only [addf_apply, maximumf_apply, truncf_apply, subf_apply, broadcast_apply, mat3_apply, mat2_apply, mat1_apply]
  simp only [Fin.sum_univ_five, concatenate5_rows_apply, shapeCast_self, shapeCast_1a_a1_apply, broadcastTo_a1_ab_apply,
    truncf_apply, subf_apply, broadcast_apply, scalar_ofBits, ofBits_one_bf16, ofBits_zero_bf16]
  rfl

/-! ## The kernel's network is the specification's, on real inputs -/

/-- A real number less itself is zero, in the extended reals. -/
theorem coe_sub_self (x : ℝ) : ((x : EReal) - (x : EReal)) = 0 := by
  rw [← EReal.coe_sub, sub_self, EReal.coe_zero]

/-- With a real scalar and real first-layer weights the three terms that carry a difference `x − x`
    vanish, and what is left is `t · w₁ j + b₁ j`. -/
theorem lay1_eq_hid1 (w1 b1 : Fin 128 → EReal) (t : EReal)
    (ht : ∃ r : ℝ, t = (r : EReal)) (hw : ∀ j, ∃ r : ℝ, w1 j = (r : EReal)) (hb : ∀ j, ∃ r : ℝ, b1 j = (r : EReal)) :
    lay1 w1 b1 t = Cert.Spec.hid1 w1 b1 t := by
  funext j
  obtain ⟨r, rfl⟩ := ht
  obtain ⟨a, ha⟩ := hw j
  obtain ⟨b, hb'⟩ := hb j
  show max (w1 j * (r : EReal) + w1 j * ((r : EReal) - (r : EReal)) + (w1 j - w1 j) * (r : EReal) + b1 j * 1 + (b1 j - b1 j) * 1) 0
    = max ((r : EReal) * w1 j + b1 j) 0
  rw [ha, hb', coe_sub_self, coe_sub_self, coe_sub_self, mul_zero, zero_mul, zero_mul, mul_one, add_zero, add_zero, add_zero,
    mul_comm]

/-- The second layers differ only in the order of the two factors under the sum. -/
theorem lay2_eq_hid2 (W2 : Fin 128 → Fin 128 → EReal) (b2 : Fin 128 → EReal) (h : Fin 128 → EReal) :
    lay2 W2 b2 h = Cert.Spec.hid2 W2 b2 h := by
  funext k
  show max ((∑ j : Fin 128, W2 j k * h j) + b2 k) 0 = max ((∑ j : Fin 128, h j * W2 j k) + b2 k) 0
  rw [Finset.sum_congr rfl fun j _ => mul_comm (W2 j k) (h j)]

/-- When the scalar and the first layer's weights are real numbers, the kernel's network is the
    specification's. -/
theorem netK_eq_net (w1 b1 : Fin 128 → EReal) (W2 : Fin 128 → Fin 128 → EReal) (b2 : Fin 128 → EReal)
    (W3 : Fin 128 → Fin 5 → EReal) (b3 : Fin 5 → EReal) (t : EReal)
    (ht : ∃ r : ℝ, t = (r : EReal)) (hw : ∀ j, ∃ r : ℝ, w1 j = (r : EReal)) (hb : ∀ j, ∃ r : ℝ, b1 j = (r : EReal)) :
    netK w1 b1 W2 b2 W3 b3 t = Cert.Spec.net w1 b1 W2 b2 W3 b3 t := by
  funext e
  show (∑ k : Fin 128, W3 k e * lay2 W2 b2 (lay1 w1 b1 t) k) + b3 e
    = (∑ k : Fin 128, Cert.Spec.hid2 W2 b2 (Cert.Spec.hid1 w1 b1 t) k * W3 k e) + b3 e
  rw [lay1_eq_hid1 w1 b1 t ht hw hb, lay2_eq_hid2,
    Finset.sum_congr rfl fun k _ => mul_comm (W3 k e) (Cert.Spec.hid2 W2 b2 (Cert.Spec.hid1 w1 b1 t) k)]

end Cert.KernelIdeal.PayValue

end
-- ==== Proof.RunI.lean ====
/-
  The idealized kernel's run with every buffer named, over extended reals.

  Here a float is an extended real and every operation is exact, so the matrix products are sums of
  products: the result block's entry at row `e`, column `p` is the network at the scalar in column `p`
  of the scalars' block, and depends on that block through this one entry only. That is what lets the
  result buffer be named although the last block of scalars overhangs its row: the columns of the result
  block that are written back are the columns inside the row, and there the scalars' buffer holds the
  fetched block whatever its tail holds. The body obligation states each buffer on the part its transfers
  move; the run then ends with every array of the pipeline at what the data compute, and every other
  buffer outside the region at its contents after the host's transpose.
-/
import proofs.«101272_g64828236366229_cont_9to1_m_1379_11_alg».proof.Proof.DataI
import proofs.«101272_g64828236366229_cont_9to1_m_1379_11_alg».proof.Proof.PayValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result block at an index -/

/-- Row `e`, column `p` of the result block is the network at the scalar in column `p`: it reads the scalars'
    block at that one entry. -/
theorem out7_apply (x0 : Vec Ideal S1x12800 .f32) (x1 x2 : Vec Ideal S1x128 .f32) (x3 : Vec Ideal S128x128 .f32)
    (x4 : Vec Ideal S1x128 .f32) (x5 : Vec Ideal S128x5 .f32) (x6 : Vec Ideal S1x5 .f32) (e : Fin 5) (p : Fin 12800) :
    out7 (F := Ideal) x0 x1 x2 x3 x4 x5 x6 (ix2 e p)
      = PayValue.netK (fun j => x1 (ix2 (0 : Fin 1) j)) (fun j => x2 (ix2 (0 : Fin 1) j)) (fun j k => x3 (ix2 j k))
          (fun k => x4 (ix2 (0 : Fin 1) k)) (fun k e' => x5 (ix2 k e')) (fun e' => x6 (ix2 (0 : Fin 1) e'))
          (x0 (ix2 (0 : Fin 1) p)) e := by
  have hz : (![0, 0] : Fin 2 → Nat) = fun _ => 0 := funext fun a => by fin_cases a <;> rfl
  unfold out7
  rw [View.canon_unit_zero hz]
  simp only [View.ld_unit_zero (S := S1x12800) hz, View.ld_unit_zero (S := S1x128) hz, View.ld_unit_zero (S := S128x128) hz,
    View.ld_unit_zero (S := S128x5) hz, View.ld_unit_zero (S := S1x5) hz]
  exact PayValue.pay_raw x0 x1 x2 x3 x4 x5 x6 e p

/-! ## The scalars' window and the result's are cut alike -/

/-- At every point the scalars' block has its one row whole, and as many columns inside its row as the result
    block has inside the result array. -/
theorem cut_alike : ∀ t : Fin cfg0.N,
    win0_0.xsize (grid0.coords t) 0 = 1 ∧ win0_0.xsize (grid0.coords t) 1 = win0_7.xsize (grid0.coords t) 1 :=
  (by decide +kernel : ∀ t : Fin grid0.N,
    win0_0.xsize (grid0.coords t) 0 = 1 ∧ win0_0.xsize (grid0.coords t) 1 = win0_7.xsize (grid0.coords t) 1)

/-- Inside the part a fetch moves, the scalars' buffer holds the fetched block, whatever fills the rest. -/
theorem fill_moved (t : Fin cfg0.N) (d d' : S1x12800.Idx → Elt Ideal .f32)
    (g : (win0_0.xblock (grid0.coords t)).Idx → Elt Ideal .f32) (p : Fin 12800)
    (hp : p.val < win0_7.xsize (grid0.coords t) 1) :
    win0_0.fill (grid0.coords t) d g (ix2 (0 : Fin 1) p) = win0_0.fill (grid0.coords t) d' g (ix2 (0 : Fin 1) p) := by
  have hm : win0_0.moved (grid0.coords t) (ix2 (0 : Fin 1) p) = true := by
    rw [Window.moved_iff]
    intro a
    match a with
    | ⟨0, _⟩ =>
      show (0 : Nat) < win0_0.xsize (grid0.coords t) 0
      rw [(cut_alike t).1]; exact Nat.zero_lt_one
    | ⟨1, _⟩ =>
      show p.val < win0_0.xsize (grid0.coords t) 1
      rw [(cut_alike t).2]; exact hp
  unfold Window.fill
  rw [dif_pos hm, dif_pos hm]

/-- The written-back columns of the result block do not depend on what fills the scalars' buffer past its row's
    end. -/
theorem out7_cut_eq (t : Fin cfg0.N) (d d' : S1x12800.Idx → Elt Ideal .f32)
    (g : (win0_0.xblock (grid0.coords t)).Idx → Elt Ideal .f32)
    (x1 x2 : Vec Ideal S1x128 .f32) (x3 : Vec Ideal S128x128 .f32)
    (x4 : Vec Ideal S1x128 .f32) (x5 : Vec Ideal S128x5 .f32) (x6 : Vec Ideal S1x5 .f32) :
    win0_7.cut (grid0.coords t) (out7 (F := Ideal) (win0_0.fill (grid0.coords t) d g) x1 x2 x3 x4 x5 x6)
      = win0_7.cut (grid0.coords t) (out7 (F := Ideal) (win0_0.fill (grid0.coords t) d' g) x1 x2 x3 x4 x5 x6) := by
  funext j
  have h5 : (j 0).val < 5 := Nat.lt_of_lt_of_le (j 0).isLt (win0_7.xsize_le (grid0.coords t) 0)
  have h12800 : (j 1).val < 12800 := Nat.lt_of_lt_of_le (j 1).isLt (win0_7.xsize_le (grid0.coords t) 1)
  have hj : win0_7.xinj (grid0.coords t) j = ix2 (⟨(j 0).val, h5⟩ : Fin 5) (⟨(j 1).val, h12800⟩ : Fin 12800) := by
    funext a
    match a with
    | ⟨0, _⟩ => rfl
    | ⟨1, _⟩ => rfl
  show out7 (F := Ideal) _ x1 x2 x3 x4 x5 x6 (win0_7.xinj (grid0.coords t) j)
    = out7 (F := Ideal) _ x1 x2 x3 x4 x5 x6 (win0_7.xinj (grid0.coords t) j)
  rw [hj, out7_apply, out7_apply, fill_moved t d d' g ⟨(j 1).val, h12800⟩ (j 1).isLt]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare
        ((cfg0.win 7).fill (cfg0.grid.coords t) d ((cfg0.win 7).cut (cfg0.grid.coords t) ((dats m 0 c).after 7 t)))))

/-- The body at any point. The scalars' buffer holds the fetched block and, past the row's end, some `d0`; the
    result buffer ends at the network's values of that buffer, whose written-back columns are those of the named
    contents (`out7_cut_eq`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    have hcut : (cfg0.win 0).cut (cfg0.grid.coords t) (tblk m c t) = iblk m c 0 t := win0_0.cut_fill _ _ _
    rw [hcut]
    iexact H0
  isplitl [H1]; · iexact H1
  isplitl [H2]; · iexact H2
  isplitl [H3]; · iexact H3
  isplitl [H4]; · iexact H4
  isplitl [H5]; · iexact H5
  isplitl [H6]; · iexact H6
  iexists out7 (F := Ideal) (win0_0.fill (grid0.coords t) d0 (iblk m c 0 t)) (iblk m c 1 t) (iblk m c 2 t) (iblk m c 3 t)
    (iblk m c 4 t) (iblk m c 5 t) (iblk m c 6 t)
  have hfill : (cfg0.win 7).fill (cfg0.grid.coords t)
      (out7 (F := Ideal) (win0_0.fill (grid0.coords t) d0 (iblk m c 0 t)) (iblk m c 1 t) (iblk m c 2 t) (iblk m c 3 t)
        (iblk m c 4 t) (iblk m c 5 t) (iblk m c 6 t))
      ((cfg0.win 7).cut (cfg0.grid.coords t)
        (out7 (F := Ideal) (tblk m c t) (iblk m c 1 t) (iblk m c 2 t) (iblk m c 3 t) (iblk m c 4 t) (iblk m c 5 t) (iblk m c 6 t)))
      = out7 (F := Ideal) (win0_0.fill (grid0.coords t) d0 (iblk m c 0 t)) (iblk m c 1 t) (iblk m c 2 t) (iblk m c 3 t)
        (iblk m c 4 t) (iblk m c 5 t) (iblk m c 6 t) :=
    win0_7.fill_congr_cut (grid0.coords t) (out7_cut_eq t d0 _ (iblk m c 0 t) _ _ _ _ _ _)
  rw [hfill]
  iexact H7

/-- The library's body obligation, at every point: each buffer stated on the part its transfers move. -/
theorem body_obligation (c : Dev nD) :
    BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of @main terminates; every array of the pipeline
    ends at what the data compute (the result array: its launch contents overwritten, point by point, by the
    written-back columns of the network's values), every other buffer outside the region at its contents after the
    host's transpose of the result array. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as it was launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KValue.lean ====
/-
  From the blocks to the result array.

  The kernel works on the transposed problem: the 100000 scalars lie along the second axis of a
  1 × 100000 array, cut into eight blocks of 12800 columns (the last one has only 10400 columns inside
  the array), and the results are written, block by block, into a 5 × 100000 array whose column `q`
  holds the network's five values at scalar `q`; a final transposition turns that array into the
  100000 × 5 result. Here the block-wise description is integrated: the 5 × 100000 array ends holding
  `Gt`, the specification transposed, and the transposition of `Gt` is the specification `G`.
-/
import proofs.«101272_g64828236366229_cont_9to1_m_1379_11_alg».proof.Proof.DataI
import proofs.«101272_g64828236366229_cont_9to1_m_1379_11_alg».proof.Proof.PayValue
import proofs.«101272_g64828236366229_cont_9to1_m_1379_11_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The specification transposed -/

/-- The 5 × 100000 array of results: column `q` is the network at scalar `q`, the weights read off the
    argument arrays as the specification reads them. -/
def Gt (a0 : S100000.Idx → EReal) (a1 : S1x128.Idx → EReal) (a2 : S128.Idx → EReal) (a3 : S128x128.Idx → EReal)
    (a4 : S128.Idx → EReal) (a5 : S128x5.Idx → EReal) (a6 : S5.Idx → EReal) : S5x100000.Idx → EReal :=
  fun i =>
    Cert.Spec.net (fun j => a1 (ix2 (0 : Fin 1) j)) (fun j => a2 (ix1 j)) (fun j k => a3 (ix2 j k)) (fun k => a4 (ix1 k))
      (fun k e => a5 (ix2 k e)) (fun e => a6 (ix1 e))
      (a0 (ix1 (⟨(i 1).val, idx2_lt1 i⟩ : Fin 100000))) (⟨(i 0).val, idx2_lt0 i⟩ : Fin 5)

/-! ## The grid's arithmetic, decided once over the eight points -/

/-- The six weight and bias windows sit at block index zero at every point. -/
theorem whole_idx : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The scalars' window and the result's window move together: at point `t` both sit at block `t` along the
    columns and at block zero along the rows, and both are cut to the same number of columns, all 12800 but
    at the last point, where 10400 are left; the rows are never cut. -/
theorem edge_idx : ∀ t : Fin cfg0.N,
    win0_0.index t (0 : Fin 2) = 0 ∧ win0_0.index t (1 : Fin 2) = t.val
    ∧ win0_7.index t (0 : Fin 2) = 0 ∧ win0_7.index t (1 : Fin 2) = t.val
    ∧ win0_0.xsize (grid0.coords t) (0 : Fin 2) = 1 ∧ win0_7.xsize (grid0.coords t) (0 : Fin 2) = 5
    ∧ win0_0.xsize (grid0.coords t) (1 : Fin 2) = win0_7.xsize (grid0.coords t) (1 : Fin 2)
    ∧ win0_7.xsize (grid0.coords t) (1 : Fin 2) = (if t.val = 7 then 10400 else 12800) :=
  (by decide +kernel : ∀ t : Fin grid0.N, _)

variable (m : (ℓ : Loc nD τ sig) → Buf (Elt Ideal) ℓ)

/-! ## The arrays the region finds: four arguments reshaped to one row -/

/-- The scalars as one row of 100000. -/
theorem V_main_v0 (c : Dev nD) : (V m c main_v0 : S1x100000.Idx → EReal)
    = shapeCast S1x100000 (m ((c.tc : Thread nD τ).loc main_arg0)) shapeCasts_S100000_S1x100000 := by
  show StableHlo.after hostOps0 (fun b => m (c, b)) (Proc.devRef .tc main_v0) = _
  after_results
  rfl

/-- The first layer's bias as one row of 128. -/
theorem V_main_v1 (c : Dev nD) : (V m c main_v1 : S1x128.Idx → EReal)
    = shapeCast S1x128 (m ((c.tc : Thread nD τ).loc main_arg2)) shapeCasts_S128_S1x128 := by
  show StableHlo.after hostOps0 (fun b => m (c, b)) (Proc.devRef .tc main_v1) = _
  after_results
  rfl

/-- The second layer's bias as one row of 128. -/
theorem V_main_v2 (c : Dev nD) : (V m c main_v2 : S1x128.Idx → EReal)
    = shapeCast S1x128 (m ((c.tc : Thread nD τ).loc main_arg4)) shapeCasts_S128_S1x128 := by
  show StableHlo.after hostOps0 (fun b => m (c, b)) (Proc.devRef .tc main_v2) = _
  after_results
  rfl

/-- The output layer's bias as one row of 5. -/
theorem V_main_v3 (c : Dev nD) : (V m c main_v3 : S1x5.Idx → EReal)
    = shapeCast S1x5 (m ((c.tc : Thread nD τ).loc main_arg6)) shapeCasts_S5_S1x5 := by
  show StableHlo.after hostOps0 (fun b => m (c, b)) (Proc.devRef .tc main_v3) = _
  after_results
  rfl

/-! ## The weight and bias blocks are their arrays -/

/-- The first layer's weights, at every point. -/
theorem iblk1_apply (c : Dev nD) (t : Fin cfg0.N) (j : Fin 128) :
    (iblk m c 1 t : S1x128.Idx → EReal) (ix2 (0 : Fin 1) j) = m ((c.tc : Thread nD τ).loc main_arg1) (ix2 (0 : Fin 1) j) := by
  rw [← V_main_arg1 m c]
  show (V m c main_arg1 : S1x128.Idx → EReal) (((cfg0.win 1).blk t).view.emb (ix2 (0 : Fin 1) j)) = _
  refine congrArg _ (funext fun a => Fin.ext ?_)
  obtain ⟨⟨e0, e1⟩, -⟩ := whole_idx t
  match a with
  | ⟨0, _⟩ => show win0_1.index t (0 : Fin 2) * 1 + 1 * 0 = 0; rw [e0]
  | ⟨1, _⟩ => show win0_1.index t (1 : Fin 2) * 128 + 1 * j.val = j.val; rw [e1]; omega

/-- The first layer's bias, at every point. -/
theorem iblk2_apply (c : Dev nD) (t : Fin cfg0.N) (j : Fin 128) :
    (iblk m c 2 t : S1x128.Idx → EReal) (ix2 (0 : Fin 1) j) = m ((c.tc : Thread nD τ).loc main_arg2) (ix1 j) := by
  rw [← shapeCast_a_1a_apply (m ((c.tc : Thread nD τ).loc main_arg2)) shapeCasts_S128_S1x128 (0 : Fin 1) j, ← V_main_v1 m c]
  show (V m c main_v1 : S1x128.Idx → EReal) (((cfg0.win 2).blk t).view.emb (ix2 (0 : Fin 1) j)) = _
  refine congrArg _ (funext fun a => Fin.ext ?_)
  obtain ⟨-, ⟨e0, e1⟩, -⟩ := whole_idx t
  match a with
  | ⟨0, _⟩ => show win0_2.index t (0 : Fin 2) * 1 + 1 * 0 = 0; rw [e0]
  | ⟨1, _⟩ => show win0_2.index t (1 : Fin 2) * 128 + 1 * j.val = j.val; rw [e1]; omega

/-- The second layer's weights, at every point. -/
theorem iblk3_apply (c : Dev nD) (t : Fin cfg0.N) (j k : Fin 128) :
    (iblk m c 3 t : S128x128.Idx → EReal) (ix2 j k) = m ((c.tc : Thread nD τ).loc main_arg3) (ix2 j k) := by
  rw [← V_main_arg3 m c]
  show (V m c main_arg3 : S128x128.Idx → EReal) (((cfg0.win 3).blk t).view.emb (ix2 j k)) = _
  refine congrArg _ (funext fun a => Fin.ext ?_)
  obtain ⟨-, -, ⟨e0, e1⟩, -⟩ := whole_idx t
  match a with
  | ⟨0, _⟩ => show win0_3.index t (0 : Fin 2) * 128 + 1 * j.val = j.val; rw [e0]; omega
  | ⟨1, _⟩ => show win0_3.index t (1 : Fin 2) * 128 + 1 * k.val = k.val; rw [e1]; omega

/-- The second layer's bias, at every point. -/
theorem iblk4_apply (c : Dev nD) (t : Fin cfg0.N) (k : Fin 128) :
    (iblk m c 4 t : S1x128.Idx → EReal) (ix2 (0 : Fin 1) k) = m ((c.tc : Thread nD τ).loc main_arg4) (ix1 k) := by
  rw [← shapeCast_a_1a_apply (m ((c.tc : Thread nD τ).loc main_arg4)) shapeCasts_S128_S1x128 (0 : Fin 1) k, ← V_main_v2 m c]
  show (V m c main_v2 : S1x128.Idx → EReal) (((cfg0.win 4).blk t).view.emb (ix2 (0 : Fin 1) k)) = _
  refine congrArg _ (funext fun a => Fin.ext ?_)
  obtain ⟨-, -, -, ⟨e0, e1⟩, -⟩ := whole_idx t
  match a with
  | ⟨0, _⟩ => show win0_4.index t (0 : Fin 2) * 1 + 1 * 0 = 0; rw [e0]
  | ⟨1, _⟩ => show win0_4.index t (1 : Fin 2) * 128 + 1 * k.val = k.val; rw [e1]; omega

/-- The output layer's weights, at every point. -/
theorem iblk5_apply (c : Dev nD) (t : Fin cfg0.N) (k : Fin 128) (e : Fin 5) :
    (iblk m c 5 t : S128x5.Idx → EReal) (ix2 k e) = m ((c.tc : Thread nD τ).loc main_arg5) (ix2 k e) := by
  rw [← V_main_arg5 m c]
  show (V m c main_arg5 : S128x5.Idx → EReal) (((cfg0.win 5).blk t).view.emb (ix2 k e)) = _
  refine congrArg _ (funext fun a => Fin.ext ?_)
  obtain ⟨-, -, -, -, ⟨e0, e1⟩, -⟩ := whole_idx t
  match a with
  | ⟨0, _⟩ => show win0_5.index t (0 : Fin 2) * 128 + 1 * k.val = k.val; rw [e0]; omega
  | ⟨1, _⟩ => show win0_5.index t (1 : Fin 2) * 5 + 1 * e.val = e.val; rw [e1]; omega

/-- The output layer's bias, at every point. -/
theorem iblk6_apply (c : Dev nD) (t : Fin cfg0.N) (e : Fin 5) :
    (iblk m c 6 t : S1x5.Idx → EReal) (ix2 (0 : Fin 1) e) = m ((c.tc : Thread nD τ).loc main_arg6) (ix1 e) := by
  rw [← shapeCast_a_1a_apply (m ((c.tc : Thread nD τ).loc main_arg6)) shapeCasts_S5_S1x5 (0 : Fin 1) e, ← V_main_v3 m c]
  show (V m c main_v3 : S1x5.Idx → EReal) (((cfg0.win 6).blk t).view.emb (ix2 (0 : Fin 1) e)) = _
  refine congrArg _ (funext fun a => Fin.ext ?_)
  obtain ⟨-, -, -, -, -, ⟨e0, e1⟩⟩ := whole_idx t
  match a with
  | ⟨0, _⟩ => show win0_6.index t (0 : Fin 2) * 1 + 1 * 0 = 0; rw [e0]
  | ⟨1, _⟩ => show win0_6.index t (1 : Fin 2) * 5 + 1 * e.val = e.val; rw [e1]; omega

/-! ## The scalars' block inside the array -/

/-- An index of a rank-2 shape from its two coordinates, whatever the spelling of the extents. -/
def mk2 {d : Fin 2 → Nat} (a : Fin (d 0)) (b : Fin (d 1)) : (⟨2, d⟩ : Shape).Idx :=
  fun x => match x with | ⟨0, _⟩ => a | ⟨1, _⟩ => b

/-- Column `p` of the scalars' block at point `t`, when it lies inside the array, is scalar `12800 · t + p`. -/
theorem tblk_apply (c : Dev nD) (t : Fin cfg0.N) (p : Fin 12800) (q : Fin 100000)
    (hp : p.val < win0_7.xsize (grid0.coords t) (1 : Fin 2)) (hq : q.val = win0_7.index t (1 : Fin 2) * 12800 + p.val) :
    (tblk m c t : S1x12800.Idx → EReal) (ix2 (0 : Fin 1) p) = m ((c.tc : Thread nD τ).loc main_arg0) (ix1 q) := by
  obtain ⟨i0, i1, -, i3, x0, -, x1, -⟩ := edge_idx t
  rw [← shapeCast_a_1a_apply (m ((c.tc : Thread nD τ).loc main_arg0)) shapeCasts_S100000_S1x100000 (0 : Fin 1) q, ← V_main_v0 m c]
  have hjj : (ix2 (0 : Fin 1) p : S1x12800.Idx)
      = win0_0.xinj (grid0.coords t) (mk2 (d := win0_0.xsize (grid0.coords t)) ⟨0, by rw [x0]; exact Nat.one_pos⟩ ⟨p.val, by rw [x1]; exact hp⟩) :=
    funext fun a => Fin.ext (by match a with | ⟨0, _⟩ => rfl | ⟨1, _⟩ => rfl)
  unfold tblk
  rw [hjj, Pipeline.Window.fill_xinj]
  show (V m c main_v0 : S1x100000.Idx → EReal) (((cfg0.win 0).blk t).view.emb _) = _
  refine congrArg _ (funext fun a => Fin.ext ?_)
  match a with
  | ⟨0, _⟩ => show win0_0.index t (0 : Fin 2) * 1 + 1 * 0 = 0; rw [i0]
  | ⟨1, _⟩ => show win0_0.index t (1 : Fin 2) * 12800 + 1 * p.val = q.val; rw [hq, i1, i3]; omega

/-! ## What one point writes back -/

/-- The result buffer after the body, read at row `e` and column `p`: the kernel's network at the scalar in
    column `p` of the scalars' buffer. -/
theorem out7_apply (X0 : Vec Ideal S1x12800 .f32) (X1 X2 : Vec Ideal S1x128 .f32) (X3 : Vec Ideal S128x128 .f32)
    (X4 : Vec Ideal S1x128 .f32) (X5 : Vec Ideal S128x5 .f32) (X6 : Vec Ideal S1x5 .f32) (e : Fin 5) (p : Fin 12800) :
    out7 X0 X1 X2 X3 X4 X5 X6 (ix2 e p)
      = PayValue.netK (fun j => X1 (ix2 (0 : Fin 1) j)) (fun j => X2 (ix2 (0 : Fin 1) j)) (fun j k => X3 (ix2 j k))
          (fun k => X4 (ix2 (0 : Fin 1) k)) (fun k e' => X5 (ix2 k e')) (fun e' => X6 (ix2 (0 : Fin 1) e'))
          (X0 (ix2 (0 : Fin 1) p)) e := by
  have hz : (![0, 0] : Fin 2 → Nat) = fun _ => 0 := funext fun a => by fin_cases a <;> rfl
  unfold out7
  rw [View.canon_unit_zero hz]
  simp only [View.ld_unit_zero (S := S1x12800) hz, View.ld_unit_zero (S := S1x128) hz, View.ld_unit_zero (S := S128x128) hz,
    View.ld_unit_zero (S := S128x5) hz, View.ld_unit_zero (S := S1x5) hz]
  exact PayValue.pay_raw X0 X1 X2 X3 X4 X5 X6 e p

/-- One entry of the result buffer against one entry of the transposed specification: when the seven buffers
    hold the weights and biases of the argument arrays and, in the entry's column, scalar `q`, and the scalar
    and the first layer's weights and bias are real numbers, the entry in row `e` is the specification's in
    row `e`, column `q`. -/
theorem entry_eq (X0 : Vec Ideal S1x12800 .f32) (X1 X2 : Vec Ideal S1x128 .f32) (X3 : Vec Ideal S128x128 .f32)
    (X4 : Vec Ideal S1x128 .f32) (X5 : Vec Ideal S128x5 .f32) (X6 : Vec Ideal S1x5 .f32)
    (a0 : S100000.Idx → EReal) (a1 : S1x128.Idx → EReal) (a2 : S128.Idx → EReal) (a3 : S128x128.Idx → EReal)
    (a4 : S128.Idx → EReal) (a5 : S128x5.Idx → EReal) (a6 : S5.Idx → EReal)
    (e : Fin 5) (p : Fin 12800) (i : S5x100000.Idx) (hrow : (i 0).val = e.val)
    (h0 : X0 (ix2 (0 : Fin 1) p) = a0 (ix1 (⟨(i 1).val, idx2_lt1 i⟩ : Fin 100000)))
    (h1 : ∀ j, X1 (ix2 (0 : Fin 1) j) = a1 (ix2 (0 : Fin 1) j)) (h2 : ∀ j, X2 (ix2 (0 : Fin 1) j) = a2 (ix1 j))
    (h3 : ∀ j k, X3 (ix2 j k) = a3 (ix2 j k)) (h4 : ∀ k, X4 (ix2 (0 : Fin 1) k) = a4 (ix1 k))
    (h5 : ∀ k e', X5 (ix2 k e') = a5 (ix2 k e')) (h6 : ∀ e', X6 (ix2 (0 : Fin 1) e') = a6 (ix1 e'))
    (f0 : ∀ y, ∃ r : ℝ, a0 y = (r : EReal)) (f1 : ∀ y, ∃ r : ℝ, a1 y = (r : EReal)) (f2 : ∀ y, ∃ r : ℝ, a2 y = (r : EReal)) :
    out7 X0 X1 X2 X3 X4 X5 X6 (ix2 e p) = Gt a0 a1 a2 a3 a4 a5 a6 i := by
  rw [out7_apply, h0]
  simp only [h1, h2, h3, h4, h5, h6]
  rw [PayValue.netK_eq_net _ _ _ _ _ _ _ (f0 _) (fun j => f1 _) (fun j => f2 _)]
  unfold Gt
  exact congrArg _ (Fin.ext hrow.symm)

/-- WHAT POINT `t` WRITES BACK is the transposed specification read through the point's block: rows all five,
    columns `12800 · t …` as far as the array goes. -/
theorem flushed_eq (c : Dev nD) (t : Fin cfg0.N)
    (f0 : ∀ y, ∃ r : ℝ, (m ((c.tc : Thread nD τ).loc main_arg0) : S100000.Idx → EReal) y = (r : EReal))
    (f1 : ∀ y, ∃ r : ℝ, (m ((c.tc : Thread nD τ).loc main_arg1) : S1x128.Idx → EReal) y = (r : EReal))
    (f2 : ∀ y, ∃ r : ℝ, (m ((c.tc : Thread nD τ).loc main_arg2) : S128.Idx → EReal) y = (r : EReal)) :
    (dats (F := Ideal) m 0 c).flushed 7 t
      = ((cfg0.win 7).blk t).view.read (Elt Ideal)
          (Gt (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))) := by
  show (cfg0.win 7).cut (grid0.coords t) ((dats (F := Ideal) m 0 c).after 7 t) = _
  rw [after0_7]
  funext j
  obtain ⟨-, -, i2, -, -, -, -, -⟩ := edge_idx t
  have hj0 : (j 0).val < 5 := (((cfg0.win 7).xinj (grid0.coords t) j) 0).isLt
  have hj1 : (j 1).val < 12800 := (((cfg0.win 7).xinj (grid0.coords t) j) 1).isLt
  have hx : ((cfg0.win 7).xinj (grid0.coords t) j : S5x12800.Idx) = ix2 (⟨(j 0).val, hj0⟩ : Fin 5) (⟨(j 1).val, hj1⟩ : Fin 12800) :=
    funext fun a => Fin.ext (by match a with | ⟨0, _⟩ => rfl | ⟨1, _⟩ => rfl)
  show out7 (tblk m c t) (iblk m c 1 t) (iblk m c 2 t) (iblk m c 3 t) (iblk m c 4 t) (iblk m c 5 t) (iblk m c 6 t)
      ((cfg0.win 7).xinj (grid0.coords t) j)
    = Gt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (((cfg0.win 7).blk t).view.emb j)
  rw [hx]
  refine entry_eq (tblk m c t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (⟨(j 0).val, hj0⟩ : Fin 5) (⟨(j 1).val, hj1⟩ : Fin 12800) (((cfg0.win 7).blk t).view.emb j)
    ?_ ?_ (iblk1_apply m c t) (iblk2_apply m c t) (iblk3_apply m c t) (iblk4_apply m c t) (iblk5_apply m c t) (iblk6_apply m c t)
    f0 f1 f2
  · show win0_7.index t (0 : Fin 2) * 5 + 1 * (j 0).val = (j 0).val
    rw [i2]; omega
  · exact tblk_apply m c t (⟨(j 1).val, hj1⟩ : Fin 12800) _ (j 1).isLt
      (show win0_7.index t (1 : Fin 2) * 12800 + 1 * (j 1).val = win0_7.index t (1 : Fin 2) * 12800 + (j 1).val by omega)

/-! ## The blocks cover the array -/

/-- An index of the 5 × 100000 array is in point `t`'s block iff, on each axis, its coordinate is among the
    block's coordinates inside the array. -/
theorem mem_blk (t : Fin cfg0.N) (i : S5x100000.Idx) :
    i ∈ ((cfg0.win 7).blk t).view.set
      ↔ ∀ a : Fin 2, win0_7.index t a * S5x12800.size a ≤ (i a).val
          ∧ (i a).val < win0_7.index t a * S5x12800.size a + win0_7.xsize (grid0.coords t) a := by
  show i ∈ ((View.whole main_v4).slice (win0_7.rect t)).set ↔ _
  rw [View.set_slice_whole, Rect.mem_set_unit]
  exact Iff.rfl

/-- Column `q` lies in the block of point `q / 12800`, whatever the row. -/
theorem cover (i : S5x100000.Idx) :
    ∃ t : Fin cfg0.N, (cfg0.win 7).flush t = true ∧ i ∈ ((cfg0.win 7).blk t).view.set := by
  have hi0 : (i 0).val < 5 := idx2_lt0 i
  have hi1 : (i 1).val < 100000 := idx2_lt1 i
  have hN : grid0.N = 8 := N_0
  have ht : (i 1).val / 12800 < grid0.N := by rw [hN]; omega
  refine ⟨⟨(i 1).val / 12800, ht⟩, flush0_7 _, ?_⟩
  rw [mem_blk]
  obtain ⟨-, -, i2, i3, -, x5, -, x7⟩ := edge_idx ⟨(i 1).val / 12800, ht⟩
  intro a
  match a with
  | ⟨0, _⟩ =>
    show win0_7.index ⟨(i 1).val / 12800, ht⟩ (0 : Fin 2) * 5 ≤ (i 0).val
      ∧ (i 0).val < win0_7.index ⟨(i 1).val / 12800, ht⟩ (0 : Fin 2) * 5 + win0_7.xsize (grid0.coords ⟨(i 1).val / 12800, ht⟩) (0 : Fin 2)
    rw [i2, x5]; omega
  | ⟨1, _⟩ =>
    show win0_7.index ⟨(i 1).val / 12800, ht⟩ (1 : Fin 2) * 12800 ≤ (i 1).val
      ∧ (i 1).val < win0_7.index ⟨(i 1).val / 12800, ht⟩ (1 : Fin 2) * 12800 + win0_7.xsize (grid0.coords ⟨(i 1).val / 12800, ht⟩) (1 : Fin 2)
    rw [i3, x7]
    show (i 1).val / 12800 * 12800 ≤ (i 1).val
      ∧ (i 1).val < (i 1).val / 12800 * 12800 + (if (i 1).val / 12800 = 7 then 10400 else 12800)
    split <;> omega

/-- THE 5 × 100000 ARRAY after the region is the transposed specification of the argument arrays. -/
theorem final (c : Dev nD)
    (f0 : ∀ y, ∃ r : ℝ, (m ((c.tc : Thread nD τ).loc main_arg0) : S100000.Idx → EReal) y = (r : EReal))
    (f1 : ∀ y, ∃ r : ℝ, (m ((c.tc : Thread nD τ).loc main_arg1) : S1x128.Idx → EReal) y = (r : EReal))
    (f2 : ∀ y, ∃ r : ℝ, (m ((c.tc : Thread nD τ).loc main_arg2) : S128.Idx → EReal) y = (r : EReal)) :
    (dats (F := Ideal) m 0 c).arrAt 7 cfg0.N
      = Gt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (dats (F := Ideal) m 0 c).arrAt_eq_of_cover 7 _ (fun t _ => flushed_eq m c t f0 f1 f2) cover

/-! ## The transposition after the region -/

/-- THE RESULT: the 100000 × 5 array the program ends with is the specification of its arguments — the
    5 × 100000 array the region leaves, transposed — when the scalars and the first layer's weights and bias
    are real numbers. -/
theorem result_eq (c : Dev nD)
    (h0 : ∀ i, ∃ r : ℝ, (m ((c.tc : Thread nD τ).loc main_arg0) : FVec Ideal S100000 .f32) i = (r : EReal))
    (h1 : ∀ i, ∃ r : ℝ, (m ((c.tc : Thread nD τ).loc main_arg1) : FVec Ideal S1x128 .f32) i = (r : EReal))
    (h2 : ∀ i, ∃ r : ℝ, (m ((c.tc : Thread nD τ).loc main_arg2) : FVec Ideal S128 .f32) i = (r : EReal)) :
    Pipeline.afterTail₀ cfgs (dats (F := Ideal) m) 0 (V0 m) [hostOps1] c main_v5
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v5) = _
  after_results
  rw [(Pipeline.withArrays_arr spec0 launch0.win.arr_inj c (V0 m c) (fun w => (dats (F := Ideal) m 0 c).arrAt w cfg0.N) 7).trans
    (final m c h0 h1 h2)]
  funext (i : S100000x5.Idx)
  obtain ⟨q, e, rfl⟩ : ∃ (q : Fin 100000) (e : Fin 5), i = ix2 q e := ⟨i 0, i 1, eq_ix2 i⟩
  rw [transpose_ix2_apply]
  rfl

end Cert.KernelIdeal.KValue

end
-- ==== Proof.KRun.lean ====
/-
  The idealized kernel's run with its result named: the result buffer ends at the specification array of the
  arguments, the arguments unchanged.

  The run of the pipeline ends with every buffer outside the region at its contents after the host's transpose;
  the transposed result array is the specification array when every scalar and every first-layer weight and bias
  is a real number (the one place the two programs differ is a difference `x - x`, which is zero for a real `x`).
-/
import proofs.«101272_g64828236366229_cont_9to1_m_1379_11_alg».proof.Proof.RunI
import proofs.«101272_g64828236366229_cont_9to1_m_1379_11_alg».proof.Proof.KValue
import proofs.«101272_g64828236366229_cont_9to1_m_1379_11_alg».proof.Proof.Spec

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- Under finiteness of the scalars and of the first layer's weights and bias, every weakly fair execution of @main
    terminates with the result buffer at the specification array of the arguments and every argument as launched. -/
theorem value_run
    (h0 : ∀ c : Dev nD, ∀ i, ∃ r : ℝ, (m ((c.tc : Thread nD τ).loc main_arg0) : FVec Ideal S100000 .f32) i = (r : EReal))
    (h1 : ∀ c : Dev nD, ∀ i, ∃ r : ℝ, (m ((c.tc : Thread nD τ).loc main_arg1) : FVec Ideal S1x128 .f32) i = (r : EReal))
    (h2 : ∀ c : Dev nD, ∀ i, ∃ r : ℝ, (m ((c.tc : Thread nD τ).loc main_arg2) : FVec Ideal S128 .f32) i = (r : EReal)) :
    θ_run defs (onTc (τ := τ) (main (F := Ideal))) ⟨m, fun _ => 0, ρ⟩ (fun r => ∀ c : Dev nD,
      r.2.mem ((c.tc : Thread nD τ).loc main_v5)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans
        (Cert.KernelIdeal.KValue.result_eq m c (h0 c) (h1 c) (h2 c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  The reference program's result is the specification array `Cert.Spec.G` of its arguments.

  The reference is the plain three-layer perceptron on a 100000 × 1 column of scalars: a contraction of the column with
  the 1 × 128 row of first-layer weights, a bias row broadcast down the 100000 rows, the rectifier as the maximum with a
  broadcast zero; the same again with the 128 × 128 second-layer weights; and a last contraction with the 128 × 5 output
  weights plus its bias row. Over the extended reals every one of these operations is exact, so at the entry in row `p` and
  column `e` the composed term reads, from the outside in:

  * a sum over `k : Fin 128` of (second hidden value `k` of row `p`) · `W₃ k e`, plus `b₃ e`;
  * the second hidden value `k` of row `p` is `max (∑ j, (first hidden value j of row p) · W₂ j k + b₂ k) 0`;
  * the first hidden value `j` of row `p` is `max (t p · w₁ j + b₁ j) 0`, the contraction over the column's one-element
    axis being the single product `t p · w₁ j`.

  That is `Cert.Spec.net` at the scalar `t p`, which is what `Cert.Spec.G` holds at `(p, e)`. The proof goes layer by
  layer at one entry given by its coordinates: each layer's lemma reads the operations of that layer at the entry and
  cites the lemma of the layer below under the contraction's sum. Nothing is ever compared as a whole array.
-/
import proofs.«101272_g64828236366229_cont_9to1_m_1379_11_alg».proof.Defs
import proofs.«101272_g64828236366229_cont_9to1_m_1379_11_alg».proof.Proof.Gen.ReferenceIdeal.Run
import proofs.«101272_g64828236366229_cont_9to1_m_1379_11_alg».proof.Proof.Gen.ReferenceIdeal.Read
import proofs.«101272_g64828236366229_cont_9to1_m_1379_11_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open scoped BigOperators

/-! ## Which entries an entry depends on

A contraction's entry `(p, j)` reads, for each `k` of the contracted axis, the left operand at `(p, k)` and the right operand
at `(k, j)`; a column made from a vector reads the vector at its row; a bias row made from a vector and broadcast down
the rows reads the vector at the entry's column. Each statement below is that sentence for one operation of the
program, with the entry given by its coordinates. -/

theorem lidx_v1 (p : Fin 100000) (j : Fin 128) (k : Fin 1) :
    Read.lidx_main_v1 (ix2 p j) k = ix2 p k :=
  funext fun a => Fin.ext (by match a with | ⟨0, _⟩ => rfl | ⟨1, _⟩ => rfl)

theorem ridx_v1 (p : Fin 100000) (j : Fin 128) (k : Fin 1) :
    Read.ridx_main_v1 (ix2 p j) k = ix2 k j :=
  funext fun a => Fin.ext (by match a with | ⟨0, _⟩ => rfl | ⟨1, _⟩ => rfl)

theorem idx_v0 (p : Fin 100000) (k : Fin 1) : Read.idx_main_v0 (ix2 p k) = ix1 p :=
  funext fun a => Fin.ext (by match a with | ⟨0, _⟩ => rfl)

theorem idx_v3 (p : Fin 100000) (j : Fin 128) : Read.idx_main_v3 (ix2 p j) = ix2 (0 : Fin 1) j :=
  funext fun a => Fin.ext (by match a with | ⟨0, _⟩ => rfl | ⟨1, _⟩ => rfl)

theorem idx_v2 (z : Fin 1) (j : Fin 128) : Read.idx_main_v2 (ix2 z j) = ix1 j :=
  funext fun a => Fin.ext (by match a with | ⟨0, _⟩ => rfl)

theorem lidx_v6 (p : Fin 100000) (k j : Fin 128) : Read.lidx_main_v6 (ix2 p k) j = ix2 p j :=
  funext fun a => Fin.ext (by match a with | ⟨0, _⟩ => rfl | ⟨1, _⟩ => rfl)

theorem ridx_v6 (p : Fin 100000) (k j : Fin 128) : Read.ridx_main_v6 (ix2 p k) j = ix2 j k :=
  funext fun a => Fin.ext (by match a with | ⟨0, _⟩ => rfl | ⟨1, _⟩ => rfl)

theorem idx_v8 (p : Fin 100000) (k : Fin 128) : Read.idx_main_v8 (ix2 p k) = ix2 (0 : Fin 1) k :=
  funext fun a => Fin.ext (by match a with | ⟨0, _⟩ => rfl | ⟨1, _⟩ => rfl)

theorem idx_v7 (z : Fin 1) (k : Fin 128) : Read.idx_main_v7 (ix2 z k) = ix1 k :=
  funext fun a => Fin.ext (by match a with | ⟨0, _⟩ => rfl)

theorem lidx_v11 (p : Fin 100000) (e : Fin 5) (k : Fin 128) : Read.lidx_main_v11 (ix2 p e) k = ix2 p k :=
  funext fun a => Fin.ext (by match a with | ⟨0, _⟩ => rfl | ⟨1, _⟩ => rfl)

theorem ridx_v11 (p : Fin 100000) (e : Fin 5) (k : Fin 128) : Read.ridx_main_v11 (ix2 p e) k = ix2 k e :=
  funext fun a => Fin.ext (by match a with | ⟨0, _⟩ => rfl | ⟨1, _⟩ => rfl)

theorem idx_v13 (p : Fin 100000) (e : Fin 5) : Read.idx_main_v13 (ix2 p e) = ix2 (0 : Fin 1) e :=
  funext fun a => Fin.ext (by match a with | ⟨0, _⟩ => rfl | ⟨1, _⟩ => rfl)

theorem idx_v12 (z : Fin 1) (e : Fin 5) : Read.idx_main_v12 (ix2 z e) = ix1 e :=
  funext fun a => Fin.ext (by match a with | ⟨0, _⟩ => rfl)

/-! ## The three layers at an index -/

/-- The first layer at row `p`, unit `j`: the contraction over the column's one-element axis is the single product
    `t p · w₁ j` (a sum over `Fin 1`); the bias is the row `b₁` read at `j` whatever the row `p`; the rectifier is the maximum with
    the value of the zero word, which is `0`. -/
theorem layer1 (a0 : FVec Ideal S100000 .f32) (a1 : FVec Ideal S1x128 .f32) (a2 : FVec Ideal S128 .f32)
    (p : Fin 100000) (j : Fin 128) :
    Read.val_main_v5 (F := Ideal) a0 a1 a2 (ix2 p j)
      = Cert.Spec.hid1 (fun j => a1 (ix2 (0 : Fin 1) j)) (fun j => a2 (ix1 j)) (a0 (ix1 p)) j := by
  rw [Read.val_main_v5_apply, Read.val_main_v4_apply, Read.val_main_v1_apply, Read.val_main_v3_apply,
    Read.val_main_v2_apply, Read.val_main_call0_v0_apply, Read.val_main_call0_cst_apply, Fin.sum_univ_one,
    Read.val_main_v0_apply, lidx_v1, ridx_v1, idx_v0, idx_v3, idx_v2,
    Ideal.maximumf_def, Ideal.addf_def, Ideal.ofBits_def, Ideal.ofBits_zero_f32]
  rfl

/-- The second layer at row `p`, unit `k`: the contraction runs over the 128 first-layer units of the SAME row `p`, against
    column `k` of `W₂`; each summand's first-layer value is `layer1`'s; bias and rectifier as in the first layer. -/
theorem layer2 (a0 : FVec Ideal S100000 .f32) (a1 : FVec Ideal S1x128 .f32) (a2 : FVec Ideal S128 .f32)
    (a3 : FVec Ideal S128x128 .f32) (a4 : FVec Ideal S128 .f32) (p : Fin 100000) (k : Fin 128) :
    Read.val_main_v10 (F := Ideal) a0 a1 a2 a3 a4 (ix2 p k)
      = Cert.Spec.hid2 (fun j k => a3 (ix2 j k)) (fun k => a4 (ix1 k))
          (Cert.Spec.hid1 (fun j => a1 (ix2 (0 : Fin 1) j)) (fun j => a2 (ix1 j)) (a0 (ix1 p))) k := by
  rw [Read.val_main_v10_apply, Read.val_main_v9_apply, Read.val_main_v6_apply, Read.val_main_v8_apply,
    Read.val_main_v7_apply, Read.val_main_call1_v0_apply, Read.val_main_call1_cst_apply, idx_v8, idx_v7,
    Ideal.maximumf_def, Ideal.addf_def, Ideal.ofBits_def, Ideal.ofBits_zero_f32]
  unfold Cert.Spec.hid2
  refine congrArg (fun s => max (s + a4 (ix1 k)) 0) (Finset.sum_congr rfl fun j _ => ?_)
  rw [lidx_v6, ridx_v6, layer1]

/-- The output layer at row `p`, result `e`: the contraction over the 128 second-layer units of row `p` against column `e` of
    `W₃`, plus the bias `b₃ e`; each summand's second-layer value is `layer2`'s. This is the network at the scalar `t p`. -/
theorem layer3 (a0 : FVec Ideal S100000 .f32) (a1 : FVec Ideal S1x128 .f32) (a2 : FVec Ideal S128 .f32)
    (a3 : FVec Ideal S128x128 .f32) (a4 : FVec Ideal S128 .f32) (a5 : FVec Ideal S128x5 .f32) (a6 : FVec Ideal S5 .f32)
    (p : Fin 100000) (e : Fin 5) :
    Read.val_main_v14 (F := Ideal) a0 a1 a2 a3 a4 a5 a6 (ix2 p e)
      = Cert.Spec.net (fun j => a1 (ix2 (0 : Fin 1) j)) (fun j => a2 (ix1 j)) (fun j k => a3 (ix2 j k)) (fun k => a4 (ix1 k))
          (fun k e => a5 (ix2 k e)) (fun e => a6 (ix1 e)) (a0 (ix1 p)) e := by
  rw [Read.val_main_v14_apply, Read.val_main_v11_apply, Read.val_main_v13_apply, Read.val_main_v12_apply,
    idx_v13, idx_v12, Ideal.addf_def]
  unfold Cert.Spec.net Cert.Spec.out3
  refine congrArg (fun s => s + a6 (ix1 e)) (Finset.sum_congr rfl fun k _ => ?_)
  rw [lidx_v11, ridx_v11, layer2]

/-! ## The run's term is the specification -/

/-- the run's composed term, at Ideal, is the specification array of the arguments: entry by entry (an entry is a row
    `p` and a result `e`) it is the network at the scalar `t p`, by `layer3`. -/
theorem ref_eq (a0 : FVec Ideal S100000 .f32) (a1 : FVec Ideal S1x128 .f32) (a2 : FVec Ideal S128 .f32)
    (a3 : FVec Ideal S128x128 .f32) (a4 : FVec Ideal S128 .f32) (a5 : FVec Ideal S128x5 .f32) (a6 : FVec Ideal S5 .f32) :
    addf (Host.dotGeneral (F := Ideal) dot_S100000x128_S128x5_S100000x5_1_0_0_1_n_n none (maximumf (addf (Host.dotGeneral (F := Ideal) dot_S100000x128_S128x128_S100000x128_1_0_0_1_n_n none (maximumf (addf (Host.dotGeneral (F := Ideal) dot_S100000x1_S1x128_S100000x128_1_0_0_1_n_n none (broadcastInDim S100000x1 ![0] bcast_S100000_S100000x1_0 a0) a1) (broadcastInDim S100000x128 ![0, 1] bcast_S1x128_S100000x128_0_1 (broadcastInDim S1x128 ![1] bcast_S128_S1x128_1 a2))) (broadcastInDim S100000x128 ![] bcast_S_S100000x128 (constant (F := Ideal) S_ .f32 0x00000000#32))) a3) (broadcastInDim S100000x128 ![0, 1] bcast_S1x128_S100000x128_0_1 (broadcastInDim S1x128 ![1] bcast_S128_S1x128_1 a4))) (broadcastInDim S100000x128 ![] bcast_S_S100000x128 (constant (F := Ideal) S_ .f32 0x00000000#32))) a5) (broadcastInDim S100000x5 ![0, 1] bcast_S1x5_S100000x5_0_1 (broadcastInDim S1x5 ![1] bcast_S5_S1x5_1 a6))
      = Cert.Spec.G a0 a1 a2 a3 a4 a5 a6 := by
  rw [Read.val_main_v14_eq (F := Ideal) a0 a1 a2 a3 a4 a5 a6]
  funext i
  obtain ⟨p, e, rfl⟩ : ∃ (p : Fin 100000) (e : Fin 5), i = ix2 p e := ⟨i 0, i 1, eq_ix2 i⟩
  rw [layer3]
  rfl

/-- the reference's run with its result named by the specification: every execution ends with the result array equal to
    `Cert.Spec.G` of the arguments' initial contents, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (ref_eq _ _ _ _ _ _ _), (h c).2⟩)
    (Value.run (F := Ideal) m ρ)

end Cert.ReferenceIdeal.RefValue

end
-- ==== Proof.Finite.lean ====
/-
  From the precondition to "every entry is a real".

  The precondition says of each input array `x` that `|x| < +∞` holds at every entry, the seven statements joined
  by `and` into one bit. At the extended reals `|x|` is `max x (-x)` and the pattern `0x7F800000` denotes `⊤`; an
  extended real whose absolute value lies strictly below `⊤` is neither `⊤` nor `⊥`, hence the image of a real
  number. Read for the first three inputs (the scalars, the first layer's weights and its bias), this is what the
  first layer's algebra needs: `x - x = 0` holds for a real `x` and fails at the two infinities.
-/
import proofs.«101272_g64828236366229_cont_9to1_m_1379_11_alg».proof.Pre_finite_inputs
import proofs.«101272_g64828236366229_cont_9to1_m_1379_11_alg».proof.Proof.Gen.Pre_finite_inputs
import Idealize.ShloMosaic.Lib.ReduceAll
import Idealize.ShloMosaic.Lib.ValueIdx
import Idealize.ShloMosaic.PureOps.Ideal.Laws

noncomputable section

namespace Cert.FiniteIn

open Idealize.ShloMosaic Cert.Pre_finite_inputs

/-- The shape of a scalar has one index. -/
instance : Subsingleton S_.Idx := ⟨fun a b => funext fun d => d.elim0⟩

/-- An extended real whose absolute value `max x (-x)` lies strictly below `⊤` is a real: at `⊥` the absolute value
    is `-⊥ = ⊤`, at `⊤` it is `⊤`, and `⊤ < ⊤` is false. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` that came out true says `x` is a real. -/
theorem real_of_cmp (x : EReal)
    (h : FloatOps.cmpf (F := Ideal) (φ := .f32) .olt (FloatOps.hostAbsf x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  refine real_of_abs_lt_top x ?_
  by_contra hn
  simp [hn] at h'

/-- One array: `jnp.all(|a| < +∞)`, a reduction by `and` over every axis that came out true, says every entry of
    `a` is a real. -/
theorem real_of_all {s : Shape} {axes : List (Fin s.rank)}
    (hb : S_.BroadcastsInDim s (![] : Fin 0 → Fin s.rank)) (hr : s.ReducesTo axes S_) (h0 : 0 < S_.numel)
    (a : FVec Ideal s .f32)
    (h : Host.reduce IntOp.andi
          (cmpf .olt (Host.absf a) (broadcastInDim s ![] hb (constant (F := Ideal) S_ .f32 0x7F800000#32)))
          (constantI S_ 1 1#1) hr h0 ValueIdx.ix0 = 1#1) :
    ∀ i, ∃ r : ℝ, a i = (r : EReal) := fun i =>
  real_of_cmp (a i) (Host.reduce_andi_all _ _ hr h0 ValueIdx.ix0 h i)

/-- The precondition gives: every scalar, every first-layer weight and every first-layer bias is a real. The seven
    statements are joined as `((((((c₀ ∧ c₁) ∧ c₂) ∧ c₃) ∧ c₄) ∧ c₅) ∧ c₆)`; the first three are reached by taking the
    left part four times. -/
theorem real_of_pre [Cert.Pre_finite_inputs.Facts]
    (a0 : FVec Ideal S100000 .f32) (a1 : FVec Ideal S1x128 .f32) (a2 : FVec Ideal S128 .f32)
    (a3 : FVec Ideal S128x128 .f32) (a4 : FVec Ideal S128 .f32) (a5 : FVec Ideal S128x5 .f32)
    (a6 : FVec Ideal S5 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal))
      ∧ (∀ i, ∃ r : ℝ, a2 i = (r : EReal)) := by
  have h1 := congrFun h ValueIdx.ix0
  dsimp only [Cert.Pre_finite_inputs.fn, Cert.Pre_finite_inputs.fn_part1] at h1
  have h6 := (IntOp.andi_eq_one.1 h1).1
  have h5 := (IntOp.andi_eq_one.1 h6).1
  have h4 := (IntOp.andi_eq_one.1 h5).1
  have h3 := (IntOp.andi_eq_one.1 h4).1
  obtain ⟨h012, c2⟩ := IntOp.andi_eq_one.1 h3
  obtain ⟨c0, c1⟩ := IntOp.andi_eq_one.1 h012
  exact ⟨real_of_all _ _ _ a0 c0, real_of_all _ _ _ a1 c1, real_of_all _ _ _ a2 c2⟩

end Cert.FiniteIn

end
-- ==== Proof.lean ====
/-
  The certificate: a fused three-layer perceptron kernel against its plain reference.

  Both programs apply, to each of 100000 scalars `t`, the network
  `t ↦ W₃ᵀ · max (W₂ᵀ · max (t · w₁ + b₁) 0 + b₂) 0 + b₃` (widths 128, 128, 5). The kernel works on blocks of 12800
  scalars laid along the lanes, eight blocks covering 102400 ≥ 100000 columns, and computes its first layer as one
  product of five rows — the scalar, the weights and the bias each split into a leading part and a remainder
  `x - x` — which over the extended reals is `w₁ · t + b₁` exactly when the scalar, the weight and the bias are
  real numbers: the precondition, every input finite, is used there and nowhere else.

  The frames: each program runs to the end, faults nowhere and leaves its arguments unchanged. For the kernel as
  printed nothing is said of the result (the matrix unit's reading of the columns past the row's end is not stated);
  for the idealized kernel every buffer is named, the columns written back being those inside the row; the reference
  is a straight line of host operations. The idealization replaced three round trips through the narrower format by
  the identity, each its rule's statement. The two idealized programs end with equal results: the specification array
  `Cert.Spec.G` of the arguments.
-/
import proofs.«101272_g64828236366229_cont_9to1_m_1379_11_alg».proof.Defs
import proofs.«101272_g64828236366229_cont_9to1_m_1379_11_alg».proof.Proof.Gen.Kernel
import proofs.«101272_g64828236366229_cont_9to1_m_1379_11_alg».proof.Proof.Gen.KernelIdeal
import proofs.«101272_g64828236366229_cont_9to1_m_1379_11_alg».proof.Proof.Gen.ReferenceIdeal
import proofs.«101272_g64828236366229_cont_9to1_m_1379_11_alg».proof.Proof.Gen.Pre_finite_inputs
import proofs.«101272_g64828236366229_cont_9to1_m_1379_11_alg».proof.Proof.Gen.ReferenceIdeal.Run
import proofs.«101272_g64828236366229_cont_9to1_m_1379_11_alg».proof.Proof.FrameK
import proofs.«101272_g64828236366229_cont_9to1_m_1379_11_alg».proof.Proof.RunI
import proofs.«101272_g64828236366229_cont_9to1_m_1379_11_alg».proof.Proof.KRun
import proofs.«101272_g64828236366229_cont_9to1_m_1379_11_alg».proof.Proof.RefValue
import proofs.«101272_g64828236366229_cont_9to1_m_1379_11_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The three rewrites of the idealization: a value narrowed and widened back is, over the extended reals, itself. -/
theorem preserves : Cert.preserves_Kernel_KernelIdeal :=
  ⟨IdealRules.truncf_extf.statement Cert.KernelIdeal.S1x12800 .f32 .bf16,
   IdealRules.truncf_extf.statement Cert.KernelIdeal.S1x128 .f32 .bf16,
   IdealRules.truncf_extf.statement Cert.KernelIdeal.S1x128 .f32 .bf16⟩

/-- From memories that agree on the arguments, all finite, both idealized programs end with the specification array
    of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => @Cert.FiniteIn.real_of_pre Cert.Pre_finite_inputs.Gen.facts _ _ _ _ _ _ _ (hpre c)
  refine ⟨_, Cert.KernelIdeal.Hand.value_run m ρ (fun c => (hfin c).1) (fun c => (hfin c).2.1) (fun c => (hfin c).2.2), ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
